-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : FVec F S524288x128 .f32) (main_arg2 : FVec F S524288x128 .f32) (main_arg3 : IVec S524288 32) (main_arg4 : IVec S524288 32) (main_arg5 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  main_v13
-- ==== Kernel.lean ====
abbrev S524288x128 : Shape := ⟨2, ![524288, 128]⟩
abbrev S524288 : Shape := ⟨1, ![524288]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S1x1, .f32⟩
  | .hbm, ⟨7, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v94 : BitVec 1 := Scalar.cmpi .eq arg0 c127_i32
  let v95 : BitVec 32 := Scalar.extui v94
  let c0_i32_40 : BitVec 32 := 0#32
  let v96 : BitVec 1 := Scalar.cmpi .ne v95 c0_i32_40
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  reduces_S4096x1_S1 : S4096x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x128 : Shape := ⟨2, ![524288, 128]⟩
abbrev S524288 : Shape := ⟨1, ![524288]⟩
abbrev S_ : Shape := ⟨0, ![]⟩
abbrev S524288x1 : Shape := ⟨2, ![524288, 1]⟩

abbrev nBuf : Space → Nat
  | .hbm => 102
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S524288x128, .f32⟩
  | .hbm, ⟨7, _⟩ => ⟨S_, .f32⟩
  | .hbm, ⟨8, _⟩ => ⟨S524288, .f32⟩
  | .hbm, ⟨9, _⟩ => ⟨S524288x1, .f32⟩
  | .hbm, ⟨10, _⟩ => ⟨S524288x1, .f32⟩
  | .hbm, ⟨11, _⟩ => ⟨S_, .f32⟩
  | .hbm, ⟨12, _⟩ => ⟨S524288x1, .f32⟩
  | .hbm, ⟨13, _⟩ => ⟨S524288x1, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288, .f32⟩
  | .hbm, ⟨19, _⟩ => ⟨S524288x1, .f32⟩
  | .hbm, ⟨20, _⟩ => ⟨S524288x1, .f32⟩
  | .hbm, ⟨21, _⟩ => ⟨S_, .f32⟩
  | .hbm, ⟨22, _⟩ => ⟨S524288x1, .f32⟩
  | .hbm, ⟨23, _⟩ => ⟨S524288x1, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288, .f32⟩
  | .hbm, ⟨29, _⟩ => ⟨S524288x1, .f32⟩
  | .hbm, ⟨30, _⟩ => ⟨S524288x1, .f32⟩
  | .hbm, ⟨31, _⟩ => ⟨S_, .f32⟩
  | .hbm, ⟨32, _⟩ => ⟨S524288x1, .f32⟩
  | .hbm, ⟨33, _⟩ => ⟨S524288x1, .f32⟩
  | .hbm, ⟨34, _⟩ => ⟨S524288x128, .f32⟩
  | .hbm, ⟨35, _⟩ => ⟨S524288x128, .f32⟩
  | .hbm, ⟨36, _⟩ => ⟨S524288x128, .f32⟩
  | .hbm, ⟨37, _⟩ => ⟨S_, .f32⟩
  | .hbm, ⟨38, _⟩ => ⟨S524288, .f32⟩
  | .hbm, ⟨39, _⟩ => ⟨S524288x128, .f32⟩
  | .hbm, ⟨40, _⟩ => ⟨S_, .f32⟩
  | .hbm, ⟨41, _⟩ => ⟨S524288, .f32⟩
  | .hbm, ⟨42, _⟩ => ⟨S524288, .i1⟩
  | .hbm, ⟨43, _⟩ => ⟨S_, .f32⟩
  | .hbm, ⟨44, _⟩ => ⟨S524288, .f32⟩
  | .hbm, ⟨45, _⟩ => ⟨S524288, .i1⟩
  | .hbm, ⟨46, _⟩ => ⟨S524288, .i1⟩
  | .hbm, ⟨47, _⟩ => ⟨S_, .f32⟩
  | .hbm, ⟨48, _⟩ => ⟨S_, .f32⟩
  | .hbm, ⟨49, _⟩ => ⟨S524288, .f32⟩
  | .hbm, ⟨50, _⟩ => ⟨S524288, .f32⟩
  | .hbm, ⟨51, _⟩ => ⟨S_, .f32⟩
  | .hbm, ⟨52, _⟩ => ⟨S_, .f32⟩
  | .hbm, ⟨53, _⟩ => ⟨S524288, .i32⟩
  | .hbm, ⟨54, _⟩ => ⟨S_, .i32⟩
  | .hbm, ⟨55, _⟩ => ⟨S_, .i32⟩
  | .hbm, ⟨56, _⟩ => ⟨S524288, .i1⟩
  | .hbm, ⟨57, _⟩ => ⟨S524288, .f32⟩
  | .hbm, ⟨58, _⟩ => ⟨S_, .f32⟩
  | .hbm, ⟨59, _⟩ => ⟨S524288, .f32⟩
  | .hbm, ⟨60, _⟩ => ⟨S524288, .f32⟩
  | .hbm, ⟨61, _⟩ => ⟨S_, .f32⟩
  | .hbm, ⟨62, _⟩ => ⟨S524288, .f32⟩
  | .hbm, ⟨63, _⟩ => ⟨S524288, .f32⟩
  | .hbm, ⟨64, _⟩ => ⟨S524288, .f32⟩
  | .hbm, ⟨65, _⟩ => ⟨S524288, .f32⟩
  | .hbm, ⟨66, _⟩ => ⟨S524288, .i1⟩
  | .hbm, ⟨67, _⟩ => ⟨S524288, .f32⟩
  | .hbm, ⟨68, _⟩ => ⟨S524288, .f32⟩
  | .hbm, ⟨69, _⟩ => ⟨S524288, .f32⟩
  | .hbm, ⟨70, _⟩ => ⟨S524288, .f32⟩
  | .hbm, ⟨71, _⟩ => ⟨S524288, .f32⟩
  | .hbm, ⟨72, _⟩ => ⟨S524288, .f32⟩
  | .hbm, ⟨73, _⟩ => ⟨S524288, .f32⟩
  | .hbm, ⟨74, _⟩ => ⟨S524288, .f32⟩
  | .hbm, ⟨75, _⟩ => ⟨S_, .f32⟩
  | .hbm, ⟨76, _⟩ => ⟨S_, .f32⟩
  | .hbm, ⟨77, _⟩ => ⟨S524288, .f32⟩
  | .hbm, ⟨78, _⟩ => ⟨S524288, .f32⟩
  | .hbm, ⟨79, _⟩ => ⟨S_, .f32⟩
  | .hbm, ⟨80, _⟩ => ⟨S_, .f32⟩
  | .hbm, ⟨81, _⟩ => ⟨S524288, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .i32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v40 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_c_13 : Ref sig .tc := ⟨.hbm, 82, rfl⟩
abbrev main_v44 : Ref sig .tc := ⟨.hbm, 83, rfl⟩
abbrev main_c_14 : Ref sig .tc := ⟨.hbm, 84, rfl⟩
abbrev main_v45 : Ref sig .tc := ⟨.hbm, 85, rfl⟩
abbrev main_cst_15 : Ref sig .tc := ⟨.hbm, 86, rfl⟩
abbrev main_call3_v0 : Ref sig .tc := ⟨.hbm, 87, rfl⟩
abbrev main_v46 : Ref sig .tc := ⟨.hbm, 88, rfl⟩
abbrev main_c_16 : Ref sig .tc := ⟨.hbm, 89, rfl⟩
abbrev main_v47 : Ref sig .tc := ⟨.hbm, 90, rfl⟩
abbrev main_cst_17 : Ref sig .tc := ⟨.hbm, 91, rfl⟩
abbrev main_call4_v0 : Ref sig .tc := ⟨.hbm, 92, rfl⟩
abbrev main_v48 : Ref sig .tc := ⟨.hbm, 93, rfl⟩
abbrev main_v49 : Ref sig .tc := ⟨.hbm, 94, rfl⟩
abbrev main_c_18 : Ref sig .tc := ⟨.hbm, 95, rfl⟩
abbrev main_v50 : Ref sig .tc := ⟨.hbm, 96, rfl⟩
abbrev main_cst_19 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]

class Facts₀ : Prop where
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S524288 : S_.BroadcastsInDim S524288 (![] : Fin 0 → Fin S524288.rank)
  reducesTo_S524288_S_d0 : S524288.ReducesTo [0] S_
  natLt_1_32 : 1 < 32

variable [Facts₀]

class Facts : Prop extends Facts₀ where

variable [Facts]
-- ==== Proof.BodyPieces.lean ====
/-
  What one run of the kernel body leaves in its four one-word accumulators and, at the last point, in the output
  word, as pure terms of the three blocks it loaded and of what the accumulators held. At the first point the body
  first resets an accumulator and then adds to what it reads back, so it leaves the update of the reset word; at
  every later point it leaves the update of the word the point before left; at the last point it also stores the
  combination of the four freshly updated accumulators. The body's runs found these as lists of stored pieces;
  each list is read back here as the one value it amounts to, for any float family.
-/
import proofs.«144281_j33062658245027_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Both the accumulators' and the blocks' accesses start at the origin. -/
theorem origin : (![0, 0] : Fin 2 → Nat) = fun _ => 0 := funext fun a => by fin_cases a <;> rfl

/-- The all-ones mask the body flips the hard mask with. -/
abbrev ones : IVec S4096x1 1 := constantI S4096x1 1 1#1

/-- The hard total's accumulator after a point that found it at `acc`. -/
abbrev hardTotalAfter (x0 x1 x2 : Vec F S4096x128 .f32) (acc : Vec F S1x1 .f32) : Vec F S1x1 .f32 :=
  k0_pay16 (k0_pay11 x0 x2) (k0_pay12 x0 x1 x2) acc
/-- The other total's accumulator after a point that found it at `acc`. -/
abbrev otherTotalAfter (x0 x1 x2 : Vec F S4096x128 .f32) (acc : Vec F S1x1 .f32) : Vec F S1x1 .f32 :=
  k0_pay1 (k0_pay17 (k0_pay10 x0 x1) (k0_pay11 x0 x2) (k0_pay12 x0 x1 x2) ones acc)
/-- The hard count's accumulator after a point that found it at `acc`. -/
abbrev hardCountAfter (x0 x1 x2 : Vec F S4096x128 .f32) (acc : Vec F S1x1 .f32) : Vec F S1x1 .f32 :=
  k0_pay2 (k0_pay14 (k0_pay12 x0 x1 x2)) acc
/-- The other count's accumulator after a point that found it at `acc`. -/
abbrev otherCountAfter (x0 x1 x2 : Vec F S4096x128 .f32) (acc : Vec F S1x1 .f32) : Vec F S1x1 .f32 :=
  k0_pay3 (k0_pay15 (k0_pay12 x0 x1 x2) ones) acc

variable (c : Dev nD) (i : grid0.Coords) (a1 : Memref sig .tc .vmem S4096x128 .f32) (h1 : a1.IsWhole) (a2 : Memref sig .tc .vmem S4096x128 .f32) (h2 : a2.IsWhole) (a3 : Memref sig .tc .vmem S4096x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole)

/-! ## The first point: each accumulator is the update of its reset word -/

/-- At the first point the hard total ends at the update of the zero word the point stored first. -/
theorem hardTotal_first (hc0 : cond0_0 i) (hc1 : ¬cond0_1 i) (x0 x1 x2 : Vec F S4096x128 .f32) :
    sout0_A_0 c i a1 h1 a2 h2 a3 h3 a4 h4 a5 h5 a6 h6 a7 h7 a8 h8 hc0 hc1 x0 x1 x2 = hardTotalAfter x0 x1 x2 (k0_pay5 (F := F)) := by
  unfold sout0_A_0
  rw [View.read_writes_eq_canon _ _ _ (scover0_A_0 c i a1 h1 a2 h2 a3 h3 a4 h4 a5 h5 a6 h6 a7 h7 a8 h8 hc0 hc1 x0 x1 x2)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread, View.ld_unit_zero (S := S4096x128) origin]

/-- At the first point the other total ends at the update of the zero word the point stored first. -/
theorem otherTotal_first (hc0 : cond0_0 i) (hc1 : ¬cond0_1 i) (x0 x1 x2 : Vec F S4096x128 .f32) :
    sout0_A_1 c i a1 h1 a2 h2 a3 h3 a4 h4 a5 h5 a6 h6 a7 h7 a8 h8 hc0 hc1 x0 x1 x2 = otherTotalAfter x0 x1 x2 (k0_pay6 (F := F)) := by
  unfold sout0_A_1
  rw [View.read_writes_eq_canon _ _ _ (scover0_A_1 c i a1 h1 a2 h2 a3 h3 a4 h4 a5 h5 a6 h6 a7 h7 a8 h8 hc0 hc1 x0 x1 x2)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread, View.ld_unit_zero (S := S4096x128) origin]

/-- At the first point the hard count ends at the update of the zero word the point stored first. -/
theorem hardCount_first (hc0 : cond0_0 i) (hc1 : ¬cond0_1 i) (x0 x1 x2 : Vec F S4096x128 .f32) :
    sout0_A_2 c i a1 h1 a2 h2 a3 h3 a4 h4 a5 h5 a6 h6 a7 h7 a8 h8 hc0 hc1 x0 x1 x2 = hardCountAfter x0 x1 x2 (k0_pay7 (F := F)) := by
  unfold sout0_A_2
  rw [View.read_writes_eq_canon _ _ _ (scover0_A_2 c i a1 h1 a2 h2 a3 h3 a4 h4 a5 h5 a6 h6 a7 h7 a8 h8 hc0 hc1 x0 x1 x2)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread, View.ld_unit_zero (S := S4096x128) origin]

/-- At the first point the other count ends at the update of the zero word the point stored first. -/
theorem otherCount_first (hc0 : cond0_0 i) (hc1 : ¬cond0_1 i) (x0 x1 x2 : Vec F S4096x128 .f32) :
    sout0_A_3 c i a1 h1 a2 h2 a3 h3 a4 h4 a5 h5 a6 h6 a7 h7 a8 h8 hc0 hc1 x0 x1 x2 = otherCountAfter x0 x1 x2 (k0_pay8 (F := F)) := by
  unfold sout0_A_3
  rw [View.read_writes_eq_canon _ _ _ (scover0_A_3 c i a1 h1 a2 h2 a3 h3 a4 h4 a5 h5 a6 h6 a7 h7 a8 h8 hc0 hc1 x0 x1 x2)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread, View.ld_unit_zero (S := S4096x128) origin]

/-! ## A middle point: each accumulator is the update of what the point before left -/

/-- At a middle point the hard total ends at the update of the word it held. -/
theorem hardTotal_middle (hc0 : ¬cond0_0 i) (hc1 : ¬cond0_1 i) (x0 x1 x2 : Vec F S4096x128 .f32) (xs0 xs1 xs2 xs3 : Vec F S1x1 .f32) :
    sout0_B_0 c i a1 h1 a2 h2 a3 h3 a4 h4 a5 h5 a6 h6 a7 h7 a8 h8 hc0 hc1 x0 x1 x2 xs0 xs1 xs2 xs3 = hardTotalAfter x0 x1 x2 xs0 := by
  unfold sout0_B_0
  rw [View.read_writes_eq_canon _ _ _ (scover0_B_0 c i a1 h1 a2 h2 a3 h3 a4 h4 a5 h5 a6 h6 a7 h7 a8 h8 hc0 hc1 x0 x1 x2 xs0 xs1 xs2 xs3)]
  unfold kernelRun0_B
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At a middle point the other total ends at the update of the word it held. -/
theorem otherTotal_middle (hc0 : ¬cond0_0 i) (hc1 : ¬cond0_1 i) (x0 x1 x2 : Vec F S4096x128 .f32) (xs0 xs1 xs2 xs3 : Vec F S1x1 .f32) :
    sout0_B_1 c i a1 h1 a2 h2 a3 h3 a4 h4 a5 h5 a6 h6 a7 h7 a8 h8 hc0 hc1 x0 x1 x2 xs0 xs1 xs2 xs3 = otherTotalAfter x0 x1 x2 xs1 := by
  unfold sout0_B_1
  rw [View.read_writes_eq_canon _ _ _ (scover0_B_1 c i a1 h1 a2 h2 a3 h3 a4 h4 a5 h5 a6 h6 a7 h7 a8 h8 hc0 hc1 x0 x1 x2 xs0 xs1 xs2 xs3)]
  unfold kernelRun0_B
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At a middle point the hard count ends at the update of the word it held. -/
theorem hardCount_middle (hc0 : ¬cond0_0 i) (hc1 : ¬cond0_1 i) (x0 x1 x2 : Vec F S4096x128 .f32) (xs0 xs1 xs2 xs3 : Vec F S1x1 .f32) :
    sout0_B_2 c i a1 h1 a2 h2 a3 h3 a4 h4 a5 h5 a6 h6 a7 h7 a8 h8 hc0 hc1 x0 x1 x2 xs0 xs1 xs2 xs3 = hardCountAfter x0 x1 x2 xs2 := by
  unfold sout0_B_2
  rw [View.read_writes_eq_canon _ _ _ (scover0_B_2 c i a1 h1 a2 h2 a3 h3 a4 h4 a5 h5 a6 h6 a7 h7 a8 h8 hc0 hc1 x0 x1 x2 xs0 xs1 xs2 xs3)]
  unfold kernelRun0_B
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At a middle point the other count ends at the update of the word it held. -/
theorem otherCount_middle (hc0 : ¬cond0_0 i) (hc1 : ¬cond0_1 i) (x0 x1 x2 : Vec F S4096x128 .f32) (xs0 xs1 xs2 xs3 : Vec F S1x1 .f32) :
    sout0_B_3 c i a1 h1 a2 h2 a3 h3 a4 h4 a5 h5 a6 h6 a7 h7 a8 h8 hc0 hc1 x0 x1 x2 xs0 xs1 xs2 xs3 = otherCountAfter x0 x1 x2 xs3 := by
  unfold sout0_B_3
  rw [View.read_writes_eq_canon _ _ _ (scover0_B_3 c i a1 h1 a2 h2 a3 h3 a4 h4 a5 h5 a6 h6 a7 h7 a8 h8 hc0 hc1 x0 x1 x2 xs0 xs1 xs2 xs3)]
  unfold kernelRun0_B
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-! ## The last point: the accumulators updated once more, and the output word -/

/-- At the last point the hard total ends at the update of the word it held. -/
theorem hardTotal_last (hc0 : ¬cond0_0 i) (hc1 : cond0_1 i) (x0 x1 x2 : Vec F S4096x128 .f32) (xs0 xs1 xs2 xs3 : Vec F S1x1 .f32) :
    sout0_C_0 c i a1 h1 a2 h2 a3 h3 a4 h4 a5 h5 a6 h6 a7 h7 a8 h8 hc0 hc1 x0 x1 x2 xs0 xs1 xs2 xs3 = hardTotalAfter x0 x1 x2 xs0 := by
  unfold sout0_C_0
  rw [View.read_writes_eq_canon _ _ _ (scover0_C_0 c i a1 h1 a2 h2 a3 h3 a4 h4 a5 h5 a6 h6 a7 h7 a8 h8 hc0 hc1 x0 x1 x2 xs0 xs1 xs2 xs3)]
  unfold kernelRun0_C
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At the last point the other total ends at the update of the word it held. -/
theorem otherTotal_last (hc0 : ¬cond0_0 i) (hc1 : cond0_1 i) (x0 x1 x2 : Vec F S4096x128 .f32) (xs0 xs1 xs2 xs3 : Vec F S1x1 .f32) :
    sout0_C_1 c i a1 h1 a2 h2 a3 h3 a4 h4 a5 h5 a6 h6 a7 h7 a8 h8 hc0 hc1 x0 x1 x2 xs0 xs1 xs2 xs3 = otherTotalAfter x0 x1 x2 xs1 := by
  unfold sout0_C_1
  rw [View.read_writes_eq_canon _ _ _ (scover0_C_1 c i a1 h1 a2 h2 a3 h3 a4 h4 a5 h5 a6 h6 a7 h7 a8 h8 hc0 hc1 x0 x1 x2 xs0 xs1 xs2 xs3)]
  unfold kernelRun0_C
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At the last point the hard count ends at the update of the word it held. -/
theorem hardCount_last (hc0 : ¬cond0_0 i) (hc1 : cond0_1 i) (x0 x1 x2 : Vec F S4096x128 .f32) (xs0 xs1 xs2 xs3 : Vec F S1x1 .f32) :
    sout0_C_2 c i a1 h1 a2 h2 a3 h3 a4 h4 a5 h5 a6 h6 a7 h7 a8 h8 hc0 hc1 x0 x1 x2 xs0 xs1 xs2 xs3 = hardCountAfter x0 x1 x2 xs2 := by
  unfold sout0_C_2
  rw [View.read_writes_eq_canon _ _ _ (scover0_C_2 c i a1 h1 a2 h2 a3 h3 a4 h4 a5 h5 a6 h6 a7 h7 a8 h8 hc0 hc1 x0 x1 x2 xs0 xs1 xs2 xs3)]
  unfold kernelRun0_C
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At the last point the other count ends at the update of the word it held. -/
theorem otherCount_last (hc0 : ¬cond0_0 i) (hc1 : cond0_1 i) (x0 x1 x2 : Vec F S4096x128 .f32) (xs0 xs1 xs2 xs3 : Vec F S1x1 .f32) :
    sout0_C_3 c i a1 h1 a2 h2 a3 h3 a4 h4 a5 h5 a6 h6 a7 h7 a8 h8 hc0 hc1 x0 x1 x2 xs0 xs1 xs2 xs3 = otherCountAfter x0 x1 x2 xs3 := by
  unfold sout0_C_3
  rw [View.read_writes_eq_canon _ _ _ (scover0_C_3 c i a1 h1 a2 h2 a3 h3 a4 h4 a5 h5 a6 h6 a7 h7 a8 h8 hc0 hc1 x0 x1 x2 xs0 xs1 xs2 xs3)]
  unfold kernelRun0_C
  dsimp only
  sl_unfold_words
  rw [View.canon_unit_zero origin]
  simp only [View.readAt_eq_ld, h1.read_unread, h2.read_unread, h3.read_unread, h5.read_unread, h6.read_unread, h7.read_unread, h8.read_unread,
    View.ld_unit_zero (S := S4096x128) origin, View.ld_unit_zero (S := S1x1) origin]

/-- At the last point the output word is the last step applied to the four accumulators as the point has just updated
    them, loaded in the order hard count, other count, hard total, other total. -/
theorem output_last (hc0 : ¬cond0_0 i) (hc1 : cond0_1 i) (x0 x1 x2 : Vec F S4096x128 .f32) (xs0 xs1 xs2 xs3 : Vec F S1x1 .f32) :
    out0_C_3 c i a1 h1 a2 h2 a3 h3 a4 h4 a5 h5 a6 h6 a7 h7 a8 h8 hc0 hc1 x0 x1 x2 xs0 xs1 xs2 xs3
      = k0_pay4 (hardCountAfter x0 x1 x2 xs2) (otherCountAfter x0 x1 x2 xs3) (hardTotalAfter x0 x1 x2 xs0) (otherTotalAfter x0 x1 x2 xs1) := by
  unfold out0_C_3
  rw [View.read_writes_eq_canon _ _ _ (cover0_C_3 c i a1 h1 a2 h2 a3 h3 a4 h4 a5 h5 a6 h6 a7 h7 a8 h8 hc0 hc1 x0 x1 x2 xs0 xs1 xs2 xs3)]
  unfold kernelRun0_C
  dsimp only
  sl_unfold_words
  rw [View.canon_unit_zero origin]
  simp only [View.readCov_unit_zero (S := S1x1) _ origin, View.readAt_eq_ld, h1.read_unread, h2.read_unread, h3.read_unread, h5.read_unread, h6.read_unread,
    h7.read_unread, h8.read_unread, View.ld_unit_zero (S := S4096x128) origin, View.ld_unit_zero (S := S1x1) origin]

end Cert.KernelIdeal.Pieces

end
-- ==== Proof.Accumulated.lean ====
/-
  The four accumulators point by point. Write U(t, w) for an accumulator's update at grid point t from the word w
  (the word plus the point's block sum). After point 0 an accumulator holds U(0, reset word); after point n + 1 it
  holds U(n + 1, what it held after point n). These running chains are defined here by recursion on the point, and
  what the body's runs leave in the accumulators after each point is shown to be the chains, by induction on the
  point: point 0 is the resetting case, the points 1 … 126 the plain case, point 127 the finishing case, which also
  stores the last step of the four chains into the output word.
-/
import proofs.«144281_j33062658245027_1_alg».proof.Proof.BodyPieces

noncomputable section

open Idealize.ShloMosaic Idealize.ShloMosaic.TcCoe Idealize.SL.Sem
open Idealize.ShloMosaic.Pipeline (Dat)

namespace Cert.KernelIdeal.Accumulated

open Cert.KernelIdeal Cert.KernelIdeal.Gen Cert.KernelIdeal.Pieces

variable {F : FTy → Type} [FloatOps F]
variable (m : (ℓ : Loc nD τ sig) → Buf (Elt F) ℓ)

/-- The anchor, positive and negative blocks of 4096 rows that grid point `t` loads. -/
abbrev anchorBlk (c : Dev nD) (t : Fin cfg0.N) : Vec F S4096x128 .f32 := iblk m c 0 t
abbrev positiveBlk (c : Dev nD) (t : Fin cfg0.N) : Vec F S4096x128 .f32 := iblk m c 1 t
abbrev negativeBlk (c : Dev nD) (t : Fin cfg0.N) : Vec F S4096x128 .f32 := iblk m c 2 t

/-- The grid has 128 points. -/
theorem points : cfg0.N = 128 := N_0

/-- The hard total after point `n`. -/
def hardTotalAt (c : Dev nD) : (n : ℕ) → n < cfg0.N → Vec F S1x1 .f32
  | 0, h => hardTotalAfter (anchorBlk m c ⟨0, h⟩) (positiveBlk m c ⟨0, h⟩) (negativeBlk m c ⟨0, h⟩) (k0_pay5 (F := F))
  | n + 1, h => hardTotalAfter (anchorBlk m c ⟨n + 1, h⟩) (positiveBlk m c ⟨n + 1, h⟩) (negativeBlk m c ⟨n + 1, h⟩)
      (hardTotalAt c n (Nat.lt_of_succ_lt h))
/-- The other total after point `n`. -/
def otherTotalAt (c : Dev nD) : (n : ℕ) → n < cfg0.N → Vec F S1x1 .f32
  | 0, h => otherTotalAfter (anchorBlk m c ⟨0, h⟩) (positiveBlk m c ⟨0, h⟩) (negativeBlk m c ⟨0, h⟩) (k0_pay6 (F := F))
  | n + 1, h => otherTotalAfter (anchorBlk m c ⟨n + 1, h⟩) (positiveBlk m c ⟨n + 1, h⟩) (negativeBlk m c ⟨n + 1, h⟩)
      (otherTotalAt c n (Nat.lt_of_succ_lt h))
/-- The hard count after point `n`. -/
def hardCountAt (c : Dev nD) : (n : ℕ) → n < cfg0.N → Vec F S1x1 .f32
  | 0, h => hardCountAfter (anchorBlk m c ⟨0, h⟩) (positiveBlk m c ⟨0, h⟩) (negativeBlk m c ⟨0, h⟩) (k0_pay7 (F := F))
  | n + 1, h => hardCountAfter (anchorBlk m c ⟨n + 1, h⟩) (positiveBlk m c ⟨n + 1, h⟩) (negativeBlk m c ⟨n + 1, h⟩)
      (hardCountAt c n (Nat.lt_of_succ_lt h))
/-- The other count after point `n`. -/
def otherCountAt (c : Dev nD) : (n : ℕ) → n < cfg0.N → Vec F S1x1 .f32
  | 0, h => otherCountAfter (anchorBlk m c ⟨0, h⟩) (positiveBlk m c ⟨0, h⟩) (negativeBlk m c ⟨0, h⟩) (k0_pay8 (F := F))
  | n + 1, h => otherCountAfter (anchorBlk m c ⟨n + 1, h⟩) (positiveBlk m c ⟨n + 1, h⟩) (negativeBlk m c ⟨n + 1, h⟩)
      (otherCountAt c n (Nat.lt_of_succ_lt h))

/-- After every point the four accumulators hold the four chains. -/
theorem accumulators_eq (c : Dev nD) : ∀ (n : ℕ) (hn : n < cfg0.N),
    (outsAt0 m c n hn).2.1 = hardTotalAt m c n hn ∧ (outsAt0 m c n hn).2.2.1 = otherTotalAt m c n hn
      ∧ (outsAt0 m c n hn).2.2.2.1 = hardCountAt m c n hn ∧ (outsAt0 m c n hn).2.2.2.2 = otherCountAt m c n hn
  | 0, hn => by
    have e : outsAt0 m c 0 hn = _ := outsAt0_A m c ⟨0, hn⟩ rfl (by dsimp only; omega)
    rw [e]
    dsimp only
    exact ⟨hardTotal_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) _ _ (iblk m c 0 ⟨0, hn⟩) (iblk m c 1 ⟨0, hn⟩) (iblk m c 2 ⟨0, hn⟩),
      otherTotal_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) _ _ (iblk m c 0 ⟨0, hn⟩) (iblk m c 1 ⟨0, hn⟩) (iblk m c 2 ⟨0, hn⟩),
      hardCount_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) _ _ (iblk m c 0 ⟨0, hn⟩) (iblk m c 1 ⟨0, hn⟩) (iblk m c 2 ⟨0, hn⟩),
      otherCount_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) _ _ (iblk m c 0 ⟨0, hn⟩) (iblk m c 1 ⟨0, hn⟩) (iblk m c 2 ⟨0, hn⟩)⟩
  | n + 1, hn => by
    have hN : n + 1 < 128 := lt_of_lt_of_eq hn points
    have h0 : ¬(⟨n + 1, hn⟩ : Fin cfg0.N).val % 128 = 0 := by dsimp only; omega
    obtain ⟨ih0, ih1, ih2, ih3⟩ := accumulators_eq c n (Nat.lt_of_succ_lt hn)
    by_cases h1 : (⟨n + 1, hn⟩ : Fin cfg0.N).val % 128 = 127
    · have e : outsAt0 m c (n + 1) hn = _ := outsAt0_C m c ⟨n + 1, hn⟩ h0 h1
      rw [e]
      dsimp only
      refine ⟨?_, ?_, ?_, ?_⟩
      · refine (hardTotal_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show hardTotalAfter _ _ _ (outsAt0 m c n _).2.1 = hardTotalAfter _ _ _ (hardTotalAt m c n _)
        rw [ih0]
      · refine (otherTotal_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show otherTotalAfter _ _ _ (outsAt0 m c n _).2.2.1 = otherTotalAfter _ _ _ (otherTotalAt m c n _)
        rw [ih1]
      · refine (hardCount_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show hardCountAfter _ _ _ (outsAt0 m c n _).2.2.2.1 = hardCountAfter _ _ _ (hardCountAt m c n _)
        rw [ih2]
      · refine (otherCount_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show otherCountAfter _ _ _ (outsAt0 m c n _).2.2.2.2 = otherCountAfter _ _ _ (otherCountAt m c n _)
        rw [ih3]
    · have e : outsAt0 m c (n + 1) hn = _ := outsAt0_B m c ⟨n + 1, hn⟩ h0 h1
      rw [e]
      dsimp only
      refine ⟨?_, ?_, ?_, ?_⟩
      · refine (hardTotal_middle (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show hardTotalAfter _ _ _ (outsAt0 m c n _).2.1 = hardTotalAfter _ _ _ (hardTotalAt m c n _)
        rw [ih0]
      · refine (otherTotal_middle (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show otherTotalAfter _ _ _ (outsAt0 m c n _).2.2.1 = otherTotalAfter _ _ _ (otherTotalAt m c n _)
        rw [ih1]
      · refine (hardCount_middle (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show hardCountAfter _ _ _ (outsAt0 m c n _).2.2.2.1 = hardCountAfter _ _ _ (hardCountAt m c n _)
        rw [ih2]
      · refine (otherCount_middle (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
        show otherCountAfter _ _ _ (outsAt0 m c n _).2.2.2.2 = otherCountAfter _ _ _ (otherCountAt m c n _)
        rw [ih3]

/-- At the last point the output word is the last step applied to the four chains as that point leaves them (the body
    loads them in the order hard count, other count, hard total, other total). -/
theorem output_at_last (c : Dev nD) (n : ℕ) (hn : n + 1 < cfg0.N) (h1 : (n + 1) % 128 = 127) :
    (outsAt0 m c (n + 1) hn).1
      = k0_pay4 (hardCountAt m c (n + 1) hn) (otherCountAt m c (n + 1) hn) (hardTotalAt m c (n + 1) hn) (otherTotalAt m c (n + 1) hn) := by
  have hN : n + 1 < 128 := lt_of_lt_of_eq hn points
  have h0 : ¬(⟨n + 1, hn⟩ : Fin cfg0.N).val % 128 = 0 := by dsimp only; omega
  obtain ⟨ih0, ih1, ih2, ih3⟩ := accumulators_eq m c n (Nat.lt_of_succ_lt hn)
  have e : outsAt0 m c (n + 1) hn = _ := outsAt0_C m c ⟨n + 1, hn⟩ h0 h1
  rw [e]
  dsimp only
  refine (output_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) _ _ (iblk m c 0 ⟨n + 1, hn⟩) (iblk m c 1 ⟨n + 1, hn⟩) (iblk m c 2 ⟨n + 1, hn⟩) _ _ _ _).trans ?_
  show k0_pay4 (hardCountAfter _ _ _ (outsAt0 m c n _).2.2.2.1) (otherCountAfter _ _ _ (outsAt0 m c n _).2.2.2.2)
      (hardTotalAfter _ _ _ (outsAt0 m c n _).2.1) (otherTotalAfter _ _ _ (outsAt0 m c n _).2.2.1) = _
  rw [ih0, ih1, ih2, ih3]
  rfl

end Cert.KernelIdeal.Accumulated

end
-- ==== Proof.HardNegativeLoss.lean ====
/-
  The loss both programs compute, as one function of three arrays of rows over the extended reals.

  A row is a vector of 128 lanes. Its norm is the square root of the sum of its squared lanes, floored at a
  small positive word; a row divided lane by lane by its norm is its direction, and the similarity of two rows
  is the lane sum of the products of their directions. A triple of rows (anchor, positive, negative) is HARD when
  the anchor is more similar to the negative than to the positive, or more similar to the negative than a fixed
  threshold. A hard triple contributes its negative similarity to one total; any other triple contributes
  softplus((negative similarity - positive similarity) / temperature) to a second total. Both kinds are counted.
  The loss is (second total + 1 * first total) / max(count of all triples, 1), a total whose count is zero being
  read as zero.

  The four float words (the norm's floor, the threshold, the temperature, one) are kept as the words the two
  programs share: the same word on both sides is never evaluated.
-/
import Idealize.ShloMosaic.PureOps.Ideal
import Idealize.ShloMosaic.PureOps.Ideal.Laws
import Idealize.ShloMosaic.Lib.ValueIdx

noncomputable section

namespace Cert.HardNegativeLoss

open Idealize.ShloMosaic Idealize.ShloMosaic.ValueIdx

/-- The floor under a row's norm. -/
def normFloor : EReal := Ideal.ofBits .f32 0x2B8CBCCC#32
/-- The similarity above which a negative is hard whatever the positive. -/
def threshold : EReal := Ideal.ofBits .f32 0x3F4CCCCD#32
/-- The temperature the similarity gap is divided by. -/
def temperature : EReal := Ideal.ofBits .f32 0x3DCCCCCD#32
/-- The weight of the hard total, and the floor under the count. -/
def oneWord : EReal := Ideal.ofBits .f32 0x3F800000#32

/-- A row: 128 lanes. -/
abbrev Row := Fin 128 → EReal

/-- Row `r` of an array of `n` rows. -/
def rowOf {n : ℕ} (X : (⟨2, ![n, 128]⟩ : Shape).Idx → EReal) (r : Fin n) : Row := fun k => X (ix2 r k)

/-- The norm of a row, floored. -/
def norm (x : Row) : EReal := max (Ideal.sqrt (∑ k, x k * x k)) normFloor

/-- The similarity of two rows: the lane sum of the products of their directions. -/
def sim (a b : Row) : EReal := ∑ k, Ideal.div (a k) (norm a) * Ideal.div (b k) (norm b)

/-- A triple is hard: the negative is more similar than the positive, or more similar than the threshold. -/
def isHard (a p n : Row) : Bool := decide (sim a p < sim a n) || decide (threshold < sim a n)

/-- softplus x = max(x, 0) + log(1 + exp(-|x|)). -/
def softplus (x : EReal) : EReal := max x 0 + Ideal.log1p (Ideal.exp (-(max x (-x))))

/-- What a triple adds to the hard total. -/
def hardTerm (a p n : Row) : EReal := if isHard a p n then sim a n else 0
/-- What a triple adds to the other total. -/
def otherTerm (a p n : Row) : EReal :=
  if isHard a p n then 0 else softplus (Ideal.div (sim a n - sim a p) temperature)
/-- What a triple adds to the count of hard triples. -/
def hardOne (a p n : Row) : EReal := if isHard a p n then 1 else 0
/-- What a triple adds to the count of the others. -/
def otherOne (a p n : Row) : EReal := if isHard a p n then 0 else 1

/-- The last step: from the two totals and the two counts to the loss. -/
def finish (hardTotal otherTotal hardCount otherCount : EReal) : EReal :=
  Ideal.div ((if otherCount = 0 then 0 else otherTotal) + oneWord * (if hardCount = 0 then 0 else hardTotal))
    (max (hardCount + otherCount) oneWord)

/-- The four sums over `n` triples of rows. -/
def hardTotal {n : ℕ} (A P N : (⟨2, ![n, 128]⟩ : Shape).Idx → EReal) : EReal :=
  ∑ r : Fin n, hardTerm (rowOf A r) (rowOf P r) (rowOf N r)
def otherTotal {n : ℕ} (A P N : (⟨2, ![n, 128]⟩ : Shape).Idx → EReal) : EReal :=
  ∑ r : Fin n, otherTerm (rowOf A r) (rowOf P r) (rowOf N r)
def hardCount {n : ℕ} (A P N : (⟨2, ![n, 128]⟩ : Shape).Idx → EReal) : EReal :=
  ∑ r : Fin n, hardOne (rowOf A r) (rowOf P r) (rowOf N r)
def otherCount {n : ℕ} (A P N : (⟨2, ![n, 128]⟩ : Shape).Idx → EReal) : EReal :=
  ∑ r : Fin n, otherOne (rowOf A r) (rowOf P r) (rowOf N r)

/-- The loss of `n` triples of rows. -/
def loss {n : ℕ} (A P N : (⟨2, ![n, 128]⟩ : Shape).Idx → EReal) : EReal :=
  finish (hardTotal A P N) (otherTotal A P N) (hardCount A P N) (otherCount A P N)

end Cert.HardNegativeLoss

end
-- ==== Proof.LibAxisForms.lean ====
/-
  RE-LAYOUTS AND ONE-AXIS REDUCTIONS READ AT AN INDEX GIVEN BY COORDINATES. A reusable lemma file in the style of the
  library's Lib/ValueLayout.lean: every lemma is over generic extents and reads one operation at an index written
  `ixN …`, so that it applies to a printed operation at literal shapes by unification.
  • A UNIT AXIS ADDED by a shape cast in the middle or at the end: `shapeCast_ab_a1b_apply`, `shapeCast_ab_ab1_apply`,
    `shapeCast_a_a1_apply` (the two groups of letters spell the operand's shape and the result's): the result at an
    index is the operand at the index with the unit coordinate left out.
  • A UNIT AXIS BROADCAST to an extent: `broadcastTo_a1c_abc_apply`, `broadcastTo_ab1_abc_apply`,
    `broadcastTo_a1_ab_apply`: the result at an index is the operand at the index with `0` on the unit axis.
  • ROWS SPLIT in two by a shape cast: `shapeCast_rc_abc_apply`: an `[r, c]` array cast to `[a, b, c]` reads, at
    `(i, j, k)`, row `i * b + j` at column `k`.
  • ONE-AXIS REDUCTIONS at the ideal instance (extended reals): the maximum over the rows of a matrix
    (`maxAxis0_apply`, a fold of `max` from the accumulator's value), and the sums over the rows or the columns of a
    matrix (`sumAxis0_apply`, `sumAxis1_of2_apply`) and over the last or the middle axis of a rank-3 array
    (`sumAxis2_of3_apply`, `sumAxis1_of3_apply`), each as the `Fin`-indexed sum over the reduced axis's coordinate
    with the source read at `ixN` coordinates. Each takes the format fact and the accumulator's equation as arguments, so it
    applies by `exact`, `.trans` or `erw`; the `…_f32` forms after them (`maxAxis0_f32`, `sumAxis0_f32`,
    `sumAxis1_of2_f32`, `sumAxis2_of3_f32`, `sumAxis1_of3_f32`) have both filled in as a 32-bit float kernel prints
    them, for a plain `rw`.
-/
import Idealize.ShloMosaic.Lib.ValueLayout
import Idealize.ShloMosaic.PureOps.Ideal.Laws

open scoped BigOperators

namespace Cert.AxisForms

open Idealize.ShloMosaic Idealize.ShloMosaic.ValueIdx

variable {α : Type}

/-! ## A unit axis added by a shape cast -/

/-- An `[a, b]` array cast to `[a, 1, b]` reads, at `(i, u, j)`, the operand at `(i, j)`, whatever the unit
coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`, whatever the unit
coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast to an extent -/

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1]` array broadcast to `[a, b]` reads, at `(i, j)`, the operand at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Rows split in two by a shape cast -/

/-- An `[r, c]` array cast to `[a, b, c]` reads, at `(i, j, k)`, the operand's row `i * b + j` at column `k`. -/
theorem shapeCast_rc_abc_apply {r a b c : ℕ} (x : (⟨2, ![r, c]⟩ : Shape).Idx → α)
    (h : (⟨2, ![r, c]⟩ : Shape).ShapeCasts ⟨3, ![a, b, c]⟩) (i : Fin a) (j : Fin b) (k : Fin c)
    (hlt : i.val * b + j.val < r) :
    shapeCast ⟨3, ![a, b, c]⟩ x h (ix3 i j k) = x (ix2 (⟨i.val * b + j.val, hlt⟩ : Fin r) k) :=
  shapeCast_apply x h _ _ (by
    rw [Shape.rowMajor_val_three, Shape.rowMajor_val_two]
    rfl)

/-! ## One-axis reductions at the ideal instance -/

/-- The maximum over the rows of an `[a, b]` matrix reads, at column `j`, the fold of `max` from the accumulator's
value over the column's entries `(i, j)`. -/
theorem maxAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) :=
  (Ideal.multiReduction_maximumf_single src acc h hφ hacc (ix1 j)).trans
    (congrArg (fun f : Fin a → Ideal φ => (Finset.univ : Finset (Fin a)).fold max (Ideal.ofBits φ acc) f)
      (funext fun i => congrArg src (funext fun c => Fin.ext (by
        match c with
        | ⟨0, _⟩ => rfl
        | ⟨1, _⟩ => rfl))))

/-- The sum over the rows of an `[a, b]` matrix reads, at column `j`, the sum of the column's entries `(i, j)`. -/
theorem sumAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun i _ => congrArg src (funext fun c => Fin.ext (by
      match c with
      | ⟨0, _⟩ => rfl
      | ⟨1, _⟩ => rfl)))

/-- The sum over the columns of an `[a, b]` matrix reads, at row `i`, the sum of the row's entries `(i, j)`. -/
theorem sumAxis1_of2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun c => Fin.ext (by
      match c with
      | ⟨0, _⟩ => rfl
      | ⟨1, _⟩ => rfl)))

/-- The sum over the last axis of an `[a, b, c]` array reads, at `(i, j)`, the sum of the entries `(i, j, k)`. -/
theorem sumAxis2_of3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with
      | ⟨0, _⟩ => rfl
      | ⟨1, _⟩ => rfl
      | ⟨2, _⟩ => rfl)))

/-- The sum over the middle axis of an `[a, b, c]` array reads, at `(i, k)`, the sum of the entries `(i, j, k)`. -/
theorem sumAxis1_of3_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with
      | ⟨0, _⟩ => rfl
      | ⟨1, _⟩ => rfl
      | ⟨2, _⟩ => rfl)))

/-! ## The same reductions at the accumulators a 32-bit float kernel prints, as rewrite rules

The lemmas above take the format fact and the accumulator's equation as arguments; a printed kernel gives them as
`(.inl rfl)` and `rfl` at a literal word, and a rewrite cannot fill the two arguments in from those. Here they are
filled in: the maximum from the word of `-∞`, the sums from the word of `0`. -/

/-- `maxAxis0_apply` at 32-bit floats from the word of `-∞`. -/
theorem maxAxis0_f32 {a b : ℕ} (src : FVec Ideal ⟨2, ![a, b]⟩ .f32)
    (h : (⟨2, ![a, b]⟩ : Shape).Reduces [0] ⟨1, ![b]⟩) (j : Fin b) :
    multiReduction .maximumf [0] ⟨1, ![b]⟩ src 0xFF800000#32 h (.inl rfl) rfl (ix1 j)
      = (Finset.univ : Finset (Fin a)).fold max (Ideal.ofBits .f32 0xFF800000#32) (fun i => src (ix2 i j)) :=
  maxAxis0_apply src _ h _ _ j

/-- `sumAxis0_apply` at 32-bit floats from the word of `0`. -/
theorem sumAxis0_f32 {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ i : Fin a, src (ix2 i j) :=
  sumAxis0_apply src _ h _ _ j

/-- `sumAxis1_of2_apply` at 32-bit floats from the word of `0`. -/
theorem sumAxis1_of2_f32 {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ j : Fin b, src (ix2 i j) :=
  sumAxis1_of2_apply src _ h _ _ i

/-- `sumAxis2_of3_apply` at 32-bit floats from the word of `0`. -/
theorem sumAxis2_of3_f32 {a b c : ℕ} (src : FVec Ideal ⟨3, ![a, b, c]⟩ .f32)
    (h : (⟨3, ![a, b, c]⟩ : Shape).Reduces [2] ⟨2, ![a, b]⟩) (i : Fin a) (j : Fin b) :
    multiReduction .add [2] ⟨2, ![a, b]⟩ src 0x00000000#32 h (.inl rfl) rfl (ix2 i j) = ∑ k : Fin c, src (ix3 i j k) :=
  sumAxis2_of3_apply src _ h _ _ i j

/-- `sumAxis1_of3_apply` at 32-bit floats from the word of `0`. -/
theorem sumAxis1_of3_f32 {a b c : ℕ} (src : FVec Ideal ⟨3, ![a, b, c]⟩ .f32)
    (h : (⟨3, ![a, b, c]⟩ : Shape).Reduces [1] ⟨2, ![a, c]⟩) (i : Fin a) (k : Fin c) :
    multiReduction .add [1] ⟨2, ![a, c]⟩ src 0x00000000#32 h (.inl rfl) rfl (ix2 i k) = ∑ j : Fin b, src (ix3 i j k) :=
  sumAxis1_of3_apply src _ h _ _ i k

end Cert.AxisForms
-- ==== Proof.BlockValues.lean ====
/-
  One grid point of the kernel, read as values over the extended reals. The body loads a block of 4096 anchor rows,
  the matching positive and negative rows, and four one-word accumulators. Row by row it forms the directions,
  the two similarities and the hard mask; then it adds, to each accumulator, the block's sum of hard terms, of
  other terms, of hard flags and of other flags; at the last point it combines the four accumulators into the loss.
  Each statement below reads one of the body's stored values as the specification's function of the block's rows.
-/
import proofs.«144281_j33062658245027_1_alg».proof.Proof.Gen.KernelIdeal.Skeleton
import proofs.«144281_j33062658245027_1_alg».proof.Proof.HardNegativeLoss
import proofs.«144281_j33062658245027_1_alg».proof.Proof.LibAxisForms
import Idealize.ShloMosaic.Lib.ValueLayout
import Idealize.ShloMosaic.PureOps.Ideal.Laws

noncomputable section

namespace Cert.KernelIdeal.BlockValues

open Idealize.ShloMosaic Idealize.ShloMosaic.ValueIdx Cert.KernelIdeal Cert.KernelIdeal.Gen Cert.HardNegativeLoss

/-- The one index of a one-word accumulator. -/
abbrev o : S1x1.Idx := ix2 (0 : Fin 1) (0 : Fin 1)

/-- The all-ones mask the body flips the hard mask with. -/
abbrev ones : IVec S4096x1 1 := constantI S4096x1 1 1#1

variable (x0 x1 x2 : FVec Ideal S4096x128 .f32)

/-- The floored norm of row `r` as the body forms it: the lane sum of the squares, cast to a column, its square
    root, floored at the floor word. -/
private theorem normCol_apply (x : FVec Ideal S4096x128 .f32) (r : Fin 4096) (u : Fin 1) :
    maximumf (F := Ideal)
        (sqrt (shapeCast S4096x1
          (multiReduction .add [1] S4096 (mulf x x) 0x00000000#32 reduces_S4096x128_S4096 (.inl rfl) rfl)
          shapeCasts_S4096_S4096x1))
        (broadcast S4096x1 (Scalar.ofBits .f32 0x2B8CBCCC#32)) (ix2 r u)
      = norm (rowOf x r) := by
  show max (Ideal.sqrt (shapeCast S4096x1
          (multiReduction .add [1] S4096 (mulf x x) 0x00000000#32 reduces_S4096x128_S4096 (.inl rfl) rfl)
          shapeCasts_S4096_S4096x1 (ix2 r u))) (Ideal.ofBits .f32 0x2B8CBCCC#32) = _
  rw [Cert.AxisForms.shapeCast_a_a1_apply, Cert.AxisForms.sumAxis1_of2_f32]
  rfl

/-- A block's row divided by its floored norm: the row's direction. -/
theorem direction_apply (x : FVec Ideal S4096x128 .f32) (r : Fin 4096) (k : Fin 128) :
    k0_pay9 (F := Ideal) x (ix2 r k) = Ideal.div (x (ix2 r k)) (norm (rowOf x r)) := by
  unfold k0_pay9
  show Ideal.div (x (ix2 r k)) (broadcastTo S4096x128 _ broadcasts_S4096x1_S4096x128 (ix2 r k)) = _
  rw [Cert.AxisForms.broadcastTo_a1_ab_apply, normCol_apply]

/-- The lane sum of the products of the direction of `x`'s row and the direction of `y`'s row, cast to a column,
    is the similarity of the two rows. -/
private theorem simCol_apply (x y : FVec Ideal S4096x128 .f32) (r : Fin 4096) (u : Fin 1) :
    shapeCast S4096x1
        (multiReduction .add [1] S4096
          (mulf (k0_pay9 (F := Ideal) x)
            (divf y (broadcastTo S4096x128
              (maximumf (F := Ideal)
                (sqrt (shapeCast S4096x1
                  (multiReduction .add [1] S4096 (mulf y y) 0x00000000#32 reduces_S4096x128_S4096 (.inl rfl) rfl)
                  shapeCasts_S4096_S4096x1))
                (broadcast S4096x1 (Scalar.ofBits .f32 0x2B8CBCCC#32)))
              broadcasts_S4096x1_S4096x128)))
          0x00000000#32 reduces_S4096x128_S4096 (.inl rfl) rfl)
        shapeCasts_S4096_S4096x1 (ix2 r u)
      = sim (rowOf x r) (rowOf y r) := by
  rw [Cert.AxisForms.shapeCast_a_a1_apply, Cert.AxisForms.sumAxis1_of2_f32]
  refine Finset.sum_congr rfl fun k _ => ?_
  show k0_pay9 (F := Ideal) x (ix2 r k)
      * Ideal.div (y (ix2 r k)) (broadcastTo S4096x128 _ broadcasts_S4096x1_S4096x128 (ix2 r k)) = _
  rw [direction_apply, Cert.AxisForms.broadcastTo_a1_ab_apply, normCol_apply]
  rfl

/-- The anchor-positive similarity of row `r`. -/
theorem posSim_apply (r : Fin 4096) (u : Fin 1) :
    k0_pay10 (F := Ideal) x0 x1 (ix2 r u) = sim (rowOf x0 r) (rowOf x1 r) := by
  unfold k0_pay10
  exact simCol_apply x0 x1 r u

/-- The anchor-negative similarity of row `r`. -/
theorem negSim_apply (r : Fin 4096) (u : Fin 1) :
    k0_pay11 (F := Ideal) x0 x2 (ix2 r u) = sim (rowOf x0 r) (rowOf x2 r) := by
  unfold k0_pay11
  exact simCol_apply x0 x2 r u

/-- The join of two one-bit flags is the flag of the disjunction. -/
private theorem ofBool_or (p q : Bool) : BitVec.ofBool p ||| BitVec.ofBool q = BitVec.ofBool (p || q) := by
  cases p <;> cases q <;> rfl

/-- A one-bit flag flipped by the set bit is the flag of the negation. -/
private theorem ofBool_xor_one (b : Bool) : BitVec.ofBool b ^^^ 1#1 = BitVec.ofBool (!b) := by
  cases b <;> rfl

/-- Selecting by a one-bit flag is the conditional on its Boolean. -/
private theorem select_ofBool {α : Type} (b : Bool) (x y : α) :
    Scalar.select (BitVec.ofBool b) x y = if b then x else y := by
  cases b
  · exact select_zero x y
  · exact select_one x y

/-- A one-bit flag widened without sign to 32 bits and read as a signed integer is 0 or 1. -/
private theorem ofBool_toInt (b : Bool) : ((BitVec.ofBool b).setWidth 32).toInt = if b then 1 else 0 := by
  cases b <;> rfl

/-- The hard mask at row `r`. -/
theorem hardMask_apply (r : Fin 4096) (u : Fin 1) :
    k0_pay12 (F := Ideal) x0 x1 x2 (ix2 r u) = BitVec.ofBool (isHard (rowOf x0 r) (rowOf x1 r) (rowOf x2 r)) := by
  unfold k0_pay12
  show BitVec.ofBool (decide (k0_pay10 (F := Ideal) x0 x1 (ix2 r u) < k0_pay11 (F := Ideal) x0 x2 (ix2 r u)))
      ||| BitVec.ofBool (decide (Ideal.ofBits .f32 0x3F4CCCCD#32 < k0_pay11 (F := Ideal) x0 x2 (ix2 r u))) = _
  rw [posSim_apply, negSim_apply, ofBool_or]
  rfl

/-- A one-word accumulator has one index. -/
private theorem idx_eq_o (j : S1x1.Idx) : j = o := by
  have h0 : @Eq (Fin 1) (j 0) 0 := Fin.ext (Nat.lt_one_iff.mp (idx2_lt0 j))
  have h1 : @Eq (Fin 1) (j 1) 0 := Fin.ext (Nat.lt_one_iff.mp (idx2_lt1 j))
  exact (eq_ix2 j).trans (congrArg₂ ix2 h0 h1)

/-- An accumulator plus the sum over the rows of a column (summed from the zero word, cast to one word) is,
    at its one index, the accumulator's word plus the sum of the column's 4096 entries. -/
private theorem colSum_apply (v : FVec Ideal S4096x1 .f32) (acc : Vec Ideal S1x1 .f32) (j : S1x1.Idx) :
    addf (F := Ideal) acc
        (shapeCast S1x1 (multiReduction .add [0] S1 v 0x00000000#32 reduces_S4096x1_S1 (.inl rfl) rfl)
          shapeCasts_S1_S1x1) j
      = acc o + ∑ r : Fin 4096, v (ix2 r (0 : Fin 1)) := by
  rw [idx_eq_o j]
  show acc o + shapeCast S1x1 (multiReduction .add [0] S1 v 0x00000000#32 reduces_S4096x1_S1 (.inl rfl) rfl)
          shapeCasts_S1_S1x1 (ix2 (0 : Fin 1) (0 : Fin 1)) = _
  rw [Cert.AxisForms.shapeCast_a_a1_apply, Cert.AxisForms.sumAxis0_f32]

/-- The hard total's accumulator after the point: what it held plus the block's hard terms. -/
theorem hardTotal_step (acc : Vec Ideal S1x1 .f32) :
    k0_pay16 (F := Ideal) (k0_pay11 (F := Ideal) x0 x2) (k0_pay12 (F := Ideal) x0 x1 x2) acc = fun _ => acc o + hardTotal x0 x1 x2 := by
  unfold k0_pay16
  funext j
  rw [shapeCast_self]
  refine (colSum_apply _ acc j).trans (congrArg (fun t => acc o + t) ?_)
  refine Finset.sum_congr rfl fun r _ => ?_
  show Scalar.select (k0_pay12 (F := Ideal) x0 x1 x2 (ix2 r (0 : Fin 1)))
      (k0_pay11 (F := Ideal) x0 x2 (ix2 r (0 : Fin 1))) (Ideal.ofBits .f32 0x00000000#32) = _
  rw [hardMask_apply, negSim_apply, Ideal.ofBits_zero_f32, select_ofBool]
  rfl

/-- Subtracting zero from an extended real changes nothing. -/
private theorem ereal_sub_zero (t : EReal) : t - 0 = t := by
  rw [sub_eq_add_neg, neg_zero, add_zero]

/-- Zero minus an extended real is its negation. -/
private theorem ereal_zero_sub (t : EReal) : 0 - t = -t := by
  rw [sub_eq_add_neg, zero_add]

/-- The body's softplus of a word `d`: where `d - 0` differs from itself (nowhere) `d + 0`, elsewhere
    `max(d, 0) + log1p(exp(0 - |d - 0|))`; it is the specification's softplus. -/
private theorem softplus_body (d : EReal) :
    Scalar.select (Ideal.cmp .one (d - Ideal.ofBits .f32 0x00000000#32) (d - Ideal.ofBits .f32 0x00000000#32))
        (d + Ideal.ofBits .f32 0x00000000#32)
        (max d (Ideal.ofBits .f32 0x00000000#32)
          + Ideal.log1p (Ideal.exp (Ideal.ofBits .f32 0x00000000#32
              - max (d - Ideal.ofBits .f32 0x00000000#32) (-(d - Ideal.ofBits .f32 0x00000000#32)))))
      = softplus d := by
  rw [Ideal.ofBits_zero_f32, ereal_sub_zero, ereal_zero_sub]
  have h : Ideal.cmp .one d d = 0#1 := by
    show BitVec.ofBool (decide (d ≠ d)) = 0#1
    rw [decide_eq_false (fun h => h rfl)]
    rfl
  rw [h, select_zero]
  rfl

/-- The other total's accumulator after the point. -/
theorem otherTotal_step (acc : Vec Ideal S1x1 .f32) :
    k0_pay1 (F := Ideal) (k0_pay17 (F := Ideal) (k0_pay10 (F := Ideal) x0 x1) (k0_pay11 (F := Ideal) x0 x2) (k0_pay12 (F := Ideal) x0 x1 x2) ones acc)
      = fun _ => acc o + otherTotal x0 x1 x2 := by
  unfold k0_pay1 k0_pay17 k0_pay13
  funext j
  rw [shapeCast_self]
  refine (colSum_apply _ acc j).trans (congrArg (fun t => acc o + t) ?_)
  refine Finset.sum_congr rfl fun r _ => ?_
  show Scalar.select (k0_pay12 (F := Ideal) x0 x1 x2 (ix2 r (0 : Fin 1)) ^^^ 1#1)
      (Scalar.select
        (Ideal.cmp .one
          (Ideal.div (k0_pay11 (F := Ideal) x0 x2 (ix2 r (0 : Fin 1)) - k0_pay10 (F := Ideal) x0 x1 (ix2 r (0 : Fin 1)))
              (Ideal.ofBits .f32 0x3DCCCCCD#32) - Ideal.ofBits .f32 0x00000000#32)
          (Ideal.div (k0_pay11 (F := Ideal) x0 x2 (ix2 r (0 : Fin 1)) - k0_pay10 (F := Ideal) x0 x1 (ix2 r (0 : Fin 1)))
              (Ideal.ofBits .f32 0x3DCCCCCD#32) - Ideal.ofBits .f32 0x00000000#32))
        (Ideal.div (k0_pay11 (F := Ideal) x0 x2 (ix2 r (0 : Fin 1)) - k0_pay10 (F := Ideal) x0 x1 (ix2 r (0 : Fin 1)))
              (Ideal.ofBits .f32 0x3DCCCCCD#32) + Ideal.ofBits .f32 0x00000000#32)
        (max (Ideal.div (k0_pay11 (F := Ideal) x0 x2 (ix2 r (0 : Fin 1)) - k0_pay10 (F := Ideal) x0 x1 (ix2 r (0 : Fin 1)))
              (Ideal.ofBits .f32 0x3DCCCCCD#32)) (Ideal.ofBits .f32 0x00000000#32)
          + Ideal.log1p (Ideal.exp (Ideal.ofBits .f32 0x00000000#32
              - max (Ideal.div (k0_pay11 (F := Ideal) x0 x2 (ix2 r (0 : Fin 1)) - k0_pay10 (F := Ideal) x0 x1 (ix2 r (0 : Fin 1)))
                      (Ideal.ofBits .f32 0x3DCCCCCD#32) - Ideal.ofBits .f32 0x00000000#32)
                  (-(Ideal.div (k0_pay11 (F := Ideal) x0 x2 (ix2 r (0 : Fin 1)) - k0_pay10 (F := Ideal) x0 x1 (ix2 r (0 : Fin 1)))
                      (Ideal.ofBits .f32 0x3DCCCCCD#32) - Ideal.ofBits .f32 0x00000000#32))))))
      (Ideal.ofBits .f32 0x00000000#32) = _
  rw [softplus_body, hardMask_apply, negSim_apply, posSim_apply, ofBool_xor_one, select_ofBool,
    Ideal.ofBits_zero_f32]
  show _ = otherTerm (rowOf x0 r) (rowOf x1 r) (rowOf x2 r)
  unfold otherTerm
  cases isHard (rowOf x0 r) (rowOf x1 r) (rowOf x2 r) <;> rfl

/-- A one-bit flag widened to 32 bits and converted to a float is the real 0 or 1. -/
private theorem flag_real (b : Bool) :
    (FloatOps.sitofp (F := Ideal) .f32 ((BitVec.ofBool b).setWidth 32) : EReal) = if b then 1 else 0 := by
  show (((((BitVec.ofBool b).setWidth 32).toInt : ℤ) : ℝ) : EReal) = _
  rw [ofBool_toInt]
  cases b
  · show (((0 : ℤ) : ℝ) : EReal) = 0
    rw [Int.cast_zero, EReal.coe_zero]
  · show (((1 : ℤ) : ℝ) : EReal) = 1
    rw [Int.cast_one, EReal.coe_one]

/-- The hard count's accumulator after the point. -/
theorem hardCount_step (acc : Vec Ideal S1x1 .f32) :
    k0_pay2 (F := Ideal) (k0_pay14 (F := Ideal) (k0_pay12 (F := Ideal) x0 x1 x2)) acc = fun _ => acc o + hardCount x0 x1 x2 := by
  unfold k0_pay2 k0_pay14
  funext j
  rw [shapeCast_self]
  refine (colSum_apply _ acc j).trans (congrArg (fun t => acc o + t) ?_)
  refine Finset.sum_congr rfl fun r _ => ?_
  show (FloatOps.sitofp (F := Ideal) .f32 ((k0_pay12 (F := Ideal) x0 x1 x2 (ix2 r (0 : Fin 1))).setWidth 32) : EReal) = _
  rw [hardMask_apply, flag_real]
  rfl

/-- The other count's accumulator after the point. -/
theorem otherCount_step (acc : Vec Ideal S1x1 .f32) :
    k0_pay3 (F := Ideal) (k0_pay15 (F := Ideal) (k0_pay12 (F := Ideal) x0 x1 x2) ones) acc = fun _ => acc o + otherCount x0 x1 x2 := by
  unfold k0_pay3 k0_pay15 k0_pay13
  funext j
  rw [shapeCast_self]
  refine (colSum_apply _ acc j).trans (congrArg (fun t => acc o + t) ?_)
  refine Finset.sum_congr rfl fun r _ => ?_
  show (FloatOps.sitofp (F := Ideal) .f32
      ((k0_pay12 (F := Ideal) x0 x1 x2 (ix2 r (0 : Fin 1)) ^^^ 1#1).setWidth 32) : EReal) = _
  rw [hardMask_apply, ofBool_xor_one, flag_real]
  show _ = otherOne (rowOf x0 r) (rowOf x1 r) (rowOf x2 r)
  unfold otherOne
  cases isHard (rowOf x0 r) (rowOf x1 r) (rowOf x2 r) <;> rfl

/-- The zero word broadcast to one word and cast to its own shape is the zero function. -/
private theorem zeroWord_apply :
    shapeCast S1x1 (broadcast S1x1 (Scalar.ofBits (F := Ideal) .f32 0x00000000#32)) shapeCasts_S1x1_S1x1
      = fun _ => (0 : EReal) := by
  rw [shapeCast_self]
  funext j
  exact Ideal.ofBits_zero_f32

/-- The four words the first point resets the accumulators to are zero. -/
theorem reset_hardTotal : (k0_pay5 (F := Ideal)) = fun _ => (0 : EReal) := by
  unfold k0_pay5
  exact zeroWord_apply
theorem reset_otherTotal : (k0_pay6 (F := Ideal)) = fun _ => (0 : EReal) := by
  unfold k0_pay6
  exact zeroWord_apply
theorem reset_hardCount : (k0_pay7 (F := Ideal)) = fun _ => (0 : EReal) := by
  unfold k0_pay7
  exact zeroWord_apply
theorem reset_otherCount : (k0_pay8 (F := Ideal)) = fun _ => (0 : EReal) := by
  unfold k0_pay8
  exact zeroWord_apply

/-- Selecting zero where a word equals the zero word is the conditional on that word being zero. -/
private theorem selectZero (c t : EReal) :
    Scalar.select (Ideal.cmp .oeq c (Ideal.ofBits .f32 0x00000000#32)) (Ideal.ofBits .f32 0x00000000#32) t
      = if c = 0 then 0 else t := by
  rw [Ideal.ofBits_zero_f32]
  show Scalar.select (BitVec.ofBool (decide (c = 0))) 0 t = _
  rw [select_ofBool]
  by_cases h : c = 0
  · rw [decide_eq_true h, if_pos h]; rfl
  · rw [decide_eq_false h, if_neg h]; rfl

/-- The last point's stored word: the loss of the four accumulators (hard count, other count, hard total,
    other total, in the order the body loads them). -/
theorem finish_apply (hc oc ht ot : Vec Ideal S1x1 .f32) :
    k0_pay4 (F := Ideal) hc oc ht ot = fun _ => finish (ht o) (ot o) (hc o) (oc o) := by
  unfold k0_pay4
  funext j
  rw [idx_eq_o j]
  show Ideal.div
      (Scalar.select (Ideal.cmp .oeq (oc o) (Ideal.ofBits .f32 0x00000000#32)) (Ideal.ofBits .f32 0x00000000#32) (ot o)
        + Ideal.ofBits .f32 0x3F800000#32
          * Scalar.select (Ideal.cmp .oeq (hc o) (Ideal.ofBits .f32 0x00000000#32)) (Ideal.ofBits .f32 0x00000000#32) (ht o))
      (max (hc o + oc o) (Ideal.ofBits .f32 0x3F800000#32)) = _
  rw [selectZero, selectZero]
  rfl

end Cert.KernelIdeal.BlockValues

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.KernelTotals.lean ====
/-
  The four accumulators over the extended reals, summed up. Grid point t loads rows 4096 t … 4096 t + 4095 of the
  three arrays, so a block's row r is row 4096 t + r of its array. Each accumulator is reset to zero at point 0 and
  grows by the point's block sum, so after point n it holds the sum of the block sums of the points 0 … n, and after
  the last point the sum over all 128 blocks; 128 blocks of 4096 rows are the 524288 rows, each once, and a sum over
  all rows does not depend on how it is grouped. The last point stores the last step of the four sums into the
  output word: the loss of the three argument arrays.
-/
import proofs.«144281_j33062658245027_1_alg».proof.Proof.Accumulated
import proofs.«144281_j33062658245027_1_alg».proof.Proof.BlockValues
import proofs.«144281_j33062658245027_1_alg».proof.Proof.LibTiles
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Pieces Cert.KernelIdeal.Accumulated Cert.KernelIdeal.BlockValues
  Cert.HardNegativeLoss

variable (m : (ℓ : Loc nD τ sig) → Buf (Elt Ideal) ℓ) (ρ : Dev nD → PrngReg)

/-- The three argument arrays as the program is launched with them. -/
abbrev anchors (c : Dev nD) : FVec Ideal S524288x128 .f32 := m ((c.tc : Thread nD τ).loc main_arg0)
abbrev positives (c : Dev nD) : FVec Ideal S524288x128 .f32 := m ((c.tc : Thread nD τ).loc main_arg1)
abbrev negatives (c : Dev nD) : FVec Ideal S524288x128 .f32 := m ((c.tc : Thread nD τ).loc main_arg2)

/-! ## A block's rows are rows of its array -/

/-- Row r of the block of point t is below the array's 524288 rows. -/
theorem row_lt (t : Fin cfg0.N) (r : Fin 4096) : t.val * 4096 + r.val < 524288 := by
  have ht : t.val < 128 := lt_of_lt_of_eq t.isLt points
  have := r.isLt
  omega

/-- Where the three input windows' blocks sit: block row t, block column 0. -/
theorem blockIndex0 : ∀ t : Fin cfg0.N, win0_0.index t 0 = t.val ∧ win0_0.index t 1 = 0 :=
  (by decide +kernel : ∀ t : Fin grid0.N, win0_0.index t 0 = t.val ∧ win0_0.index t 1 = 0)
theorem blockIndex1 : ∀ t : Fin cfg0.N, win0_1.index t 0 = t.val ∧ win0_1.index t 1 = 0 :=
  (by decide +kernel : ∀ t : Fin grid0.N, win0_1.index t 0 = t.val ∧ win0_1.index t 1 = 0)
theorem blockIndex2 : ∀ t : Fin cfg0.N, win0_2.index t 0 = t.val ∧ win0_2.index t 1 = 0 :=
  (by decide +kernel : ∀ t : Fin grid0.N, win0_2.index t 0 = t.val ∧ win0_2.index t 1 = 0)

/-- The anchor block of point t at (r, k) is the anchors at (4096 t + r, k). -/
theorem anchorBlk_apply (c : Dev nD) (t : Fin cfg0.N) (r : Fin 4096) (k : Fin 128) :
    anchorBlk m c t (ix2 r k) = anchors m c (ix2 (⟨t.val * 4096 + r.val, row_lt t r⟩ : Fin 524288) k) := by
  have hi := blockIndex0 t
  show iblk m c 0 t (ix2 r k) = _
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 4096 + 1 * r.val = t.val * 4096 + r.val; rw [hi.1]; omega
  | ⟨1, _⟩ => show win0_0.index t 1 * 128 + 1 * k.val = k.val; rw [hi.2]; omega

/-- The positive block of point t at (r, k) is the positives at (4096 t + r, k). -/
theorem positiveBlk_apply (c : Dev nD) (t : Fin cfg0.N) (r : Fin 4096) (k : Fin 128) :
    positiveBlk m c t (ix2 r k) = positives m c (ix2 (⟨t.val * 4096 + r.val, row_lt t r⟩ : Fin 524288) k) := by
  have hi := blockIndex1 t
  show iblk m c 1 t (ix2 r k) = _
  unfold iblk
  rw [View.read_apply]
  show V m c main_arg1 _ = m ((c.tc : Thread nD τ).loc main_arg1) _
  rw [V_main_arg1]
  congr 1
  funext a
  apply Fin.ext
  match a with
  | ⟨0, _⟩ => show win0_1.index t 0 * 4096 + 1 * r.val = t.val * 4096 + r.val; rw [hi.1]; omega
  | ⟨1, _⟩ => show win0_1.index t 1 * 128 + 1 * k.val = k.val; rw [hi.2]; omega

/-- The negative block of point t at (r, k) is the negatives at (4096 t + r, k). -/
theorem negativeBlk_apply (c : Dev nD) (t : Fin cfg0.N) (r : Fin 4096) (k : Fin 128) :
    negativeBlk m c t (ix2 r k) = negatives m c (ix2 (⟨t.val * 4096 + r.val, row_lt t r⟩ : Fin 524288) k) := by
  have hi := blockIndex2 t
  show iblk m c 2 t (ix2 r k) = _
  unfold iblk
  rw [View.read_apply]
  show V m c main_arg2 _ = m ((c.tc : Thread nD τ).loc main_arg2) _
  rw [V_main_arg2]
  congr 1
  funext a
  apply Fin.ext
  match a with
  | ⟨0, _⟩ => show win0_2.index t 0 * 4096 + 1 * r.val = t.val * 4096 + r.val; rw [hi.1]; omega
  | ⟨1, _⟩ => show win0_2.index t 1 * 128 + 1 * k.val = k.val; rw [hi.2]; omega

/-- So row r of a block of point t is row 4096 t + r of its array. -/
theorem anchorRow (c : Dev nD) (t : Fin cfg0.N) (r : Fin 4096) :
    rowOf (anchorBlk m c t) r = rowOf (anchors m c) (⟨t.val * 4096 + r.val, row_lt t r⟩ : Fin 524288) :=
  funext fun k => anchorBlk_apply m c t r k
theorem positiveRow (c : Dev nD) (t : Fin cfg0.N) (r : Fin 4096) :
    rowOf (positiveBlk m c t) r = rowOf (positives m c) (⟨t.val * 4096 + r.val, row_lt t r⟩ : Fin 524288) :=
  funext fun k => positiveBlk_apply m c t r k
theorem negativeRow (c : Dev nD) (t : Fin cfg0.N) (r : Fin 4096) :
    rowOf (negativeBlk m c t) r = rowOf (negatives m c) (⟨t.val * 4096 + r.val, row_lt t r⟩ : Fin 524288) :=
  funext fun k => negativeBlk_apply m c t r k

/-! ## An accumulator after point n is the sum of the block sums of the points 0 … n -/

/-- A chain that starts from the zero word and at each point adds that point's term is, after point n, the sum of the
    terms of the points 0 … n. -/
theorem chain_eq_sum (U : Fin cfg0.N → Vec Ideal S1x1 .f32 → Vec Ideal S1x1 .f32) (z : Vec Ideal S1x1 .f32)
    (g : Fin cfg0.N → EReal) (hz : z = fun _ => (0 : EReal)) (hU : ∀ t acc, U t acc = fun _ => acc o + g t)
    (ch : (n : ℕ) → n < cfg0.N → Vec Ideal S1x1 .f32) (h0 : ∀ h, ch 0 h = U ⟨0, h⟩ z)
    (hs : ∀ n (h : n + 1 < cfg0.N), ch (n + 1) h = U ⟨n + 1, h⟩ (ch n (Nat.lt_of_succ_lt h))) :
    ∀ (n : ℕ) (hn : n < cfg0.N), ch n hn = fun _ => ∑ t ∈ Finset.range (n + 1), (if h : t < cfg0.N then g ⟨t, h⟩ else 0)
  | 0, hn => by
    rw [h0, hU, hz, Finset.sum_range_one, dif_pos hn]
    funext _
    exact zero_add _
  | n + 1, hn => by
    rw [hs, hU, chain_eq_sum U z g hz hU ch h0 hs n (Nat.lt_of_succ_lt hn), Finset.sum_range_succ _ (n + 1), dif_pos hn]

/-- The sum over the points 0 … 127 of a term that is zero past the grid is the sum over the grid's 128 points. -/
theorem sum_all_points (g : Fin cfg0.N → EReal) :
    (∑ t ∈ Finset.range (127 + 1), (if h : t < cfg0.N then g ⟨t, h⟩ else 0))
      = ∑ t : Fin 128, g ⟨t.val, lt_of_lt_of_eq t.isLt points.symm⟩ := by
  rw [Finset.sum_range]
  exact Finset.sum_congr rfl fun t _ => dif_pos (lt_of_lt_of_eq t.isLt points.symm)

/-- The last point. -/
theorem last_lt : 127 < cfg0.N := by rw [points]; decide

/-- After the last point the hard total accumulator holds the array-wide sum: the 128 block sums are the sum over
    all 524288 rows, row 4096 t + r met once, at point t as row r. -/
theorem hardTotalAt_last (c : Dev nD) :
    hardTotalAt (F := Ideal) m c 127 last_lt = fun _ => hardTotal (anchors m c) (positives m c) (negatives m c) := by
  rw [chain_eq_sum (fun t acc => hardTotalAfter (anchorBlk m c t) (positiveBlk m c t) (negativeBlk m c t) acc) (k0_pay5 (F := Ideal))
      (fun t => hardTotal (anchorBlk m c t) (positiveBlk m c t) (negativeBlk m c t)) reset_hardTotal
      (fun t acc => hardTotal_step (anchorBlk m c t) (positiveBlk m c t) (negativeBlk m c t) acc)
      (hardTotalAt (F := Ideal) m c) (fun _ => rfl) (fun _ _ => rfl) 127 last_lt]
  funext _
  rw [sum_all_points (fun t => hardTotal (anchorBlk m c t) (positiveBlk m c t) (negativeBlk m c t))]
  show _ = ∑ i : Fin (128 * 4096), hardTerm (rowOf (anchors m c) i) (rowOf (positives m c) i) (rowOf (negatives m c) i)
  rw [LibTiles.tile_sum 128 4096]
  refine Finset.sum_congr rfl fun t _ => ?_
  unfold hardTotal
  refine Finset.sum_congr rfl fun r _ => ?_
  rw [anchorRow, positiveRow, negativeRow]

/-- After the last point the other total accumulator holds the array-wide sum: the 128 block sums are the sum over
    all 524288 rows, row 4096 t + r met once, at point t as row r. -/
theorem otherTotalAt_last (c : Dev nD) :
    otherTotalAt (F := Ideal) m c 127 last_lt = fun _ => otherTotal (anchors m c) (positives m c) (negatives m c) := by
  rw [chain_eq_sum (fun t acc => otherTotalAfter (anchorBlk m c t) (positiveBlk m c t) (negativeBlk m c t) acc) (k0_pay6 (F := Ideal))
      (fun t => otherTotal (anchorBlk m c t) (positiveBlk m c t) (negativeBlk m c t)) reset_otherTotal
      (fun t acc => otherTotal_step (anchorBlk m c t) (positiveBlk m c t) (negativeBlk m c t) acc)
      (otherTotalAt (F := Ideal) m c) (fun _ => rfl) (fun _ _ => rfl) 127 last_lt]
  funext _
  rw [sum_all_points (fun t => otherTotal (anchorBlk m c t) (positiveBlk m c t) (negativeBlk m c t))]
  show _ = ∑ i : Fin (128 * 4096), otherTerm (rowOf (anchors m c) i) (rowOf (positives m c) i) (rowOf (negatives m c) i)
  rw [LibTiles.tile_sum 128 4096]
  refine Finset.sum_congr rfl fun t _ => ?_
  unfold otherTotal
  refine Finset.sum_congr rfl fun r _ => ?_
  rw [anchorRow, positiveRow, negativeRow]

/-- After the last point the hard count accumulator holds the array-wide sum: the 128 block sums are the sum over
    all 524288 rows, row 4096 t + r met once, at point t as row r. -/
theorem hardCountAt_last (c : Dev nD) :
    hardCountAt (F := Ideal) m c 127 last_lt = fun _ => hardCount (anchors m c) (positives m c) (negatives m c) := by
  rw [chain_eq_sum (fun t acc => hardCountAfter (anchorBlk m c t) (positiveBlk m c t) (negativeBlk m c t) acc) (k0_pay7 (F := Ideal))
      (fun t => hardCount (anchorBlk m c t) (positiveBlk m c t) (negativeBlk m c t)) reset_hardCount
      (fun t acc => hardCount_step (anchorBlk m c t) (positiveBlk m c t) (negativeBlk m c t) acc)
      (hardCountAt (F := Ideal) m c) (fun _ => rfl) (fun _ _ => rfl) 127 last_lt]
  funext _
  rw [sum_all_points (fun t => hardCount (anchorBlk m c t) (positiveBlk m c t) (negativeBlk m c t))]
  show _ = ∑ i : Fin (128 * 4096), hardOne (rowOf (anchors m c) i) (rowOf (positives m c) i) (rowOf (negatives m c) i)
  rw [LibTiles.tile_sum 128 4096]
  refine Finset.sum_congr rfl fun t _ => ?_
  unfold hardCount
  refine Finset.sum_congr rfl fun r _ => ?_
  rw [anchorRow, positiveRow, negativeRow]

/-- After the last point the other count accumulator holds the array-wide sum: the 128 block sums are the sum over
    all 524288 rows, row 4096 t + r met once, at point t as row r. -/
theorem otherCountAt_last (c : Dev nD) :
    otherCountAt (F := Ideal) m c 127 last_lt = fun _ => otherCount (anchors m c) (positives m c) (negatives m c) := by
  rw [chain_eq_sum (fun t acc => otherCountAfter (anchorBlk m c t) (positiveBlk m c t) (negativeBlk m c t) acc) (k0_pay8 (F := Ideal))
      (fun t => otherCount (anchorBlk m c t) (positiveBlk m c t) (negativeBlk m c t)) reset_otherCount
      (fun t acc => otherCount_step (anchorBlk m c t) (positiveBlk m c t) (negativeBlk m c t) acc)
      (otherCountAt (F := Ideal) m c) (fun _ => rfl) (fun _ _ => rfl) 127 last_lt]
  funext _
  rw [sum_all_points (fun t => otherCount (anchorBlk m c t) (positiveBlk m c t) (negativeBlk m c t))]
  show _ = ∑ i : Fin (128 * 4096), otherOne (rowOf (anchors m c) i) (rowOf (positives m c) i) (rowOf (negatives m c) i)
  rw [LibTiles.tile_sum 128 4096]
  refine Finset.sum_congr rfl fun t _ => ?_
  unfold otherCount
  refine Finset.sum_congr rfl fun r _ => ?_
  rw [anchorRow, positiveRow, negativeRow]

/-! ## The output word, the result array, and the scalar the host makes of it -/

/-- The loss of the three argument arrays, as the contents of the one-word result array of the region. -/
abbrev word (c : Dev nD) : Buf (Elt Ideal) ((c.tc : Thread nD τ).loc main_v0) :=
  fun _ => loss (anchors m c) (positives m c) (negatives m c)

/-- After the last point the output window's staging word holds the loss. -/
theorem output_word (c : Dev nD) : (outsAt0 m c 127 last_lt).1 = word m c := by
  rw [output_at_last m c 126 last_lt (by decide), hardTotalAt_last, otherTotalAt_last, hardCountAt_last, otherCountAt_last,
    finish_apply]
  rfl

end Cert.KernelIdeal.Totals

end
-- ==== Proof.KernelLoss.lean ====
/-
  The kernel's result, read off its run over the extended reals. The output window's block never moves (block
  (0, 0) of a one-word array) and is written back once, after the last grid point, when its staging word holds the
  loss of the three argument arrays; that one block covers the array. The host operation after the region re-lays
  the [1, 1] array as a scalar. So every execution ends with the loss in the program's result and the six
  arguments unchanged.
-/
import proofs.«144281_j33062658245027_1_alg».proof.Proof.KernelTotals

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accumulated Cert.KernelIdeal.Totals Cert.HardNegativeLoss

variable (m : (ℓ : Loc nD τ sig) → Buf (Elt Ideal) ℓ) (ρ : Dev nD → PrngReg)

/-- The output window's block index is (0, 0) at every point, -/
theorem outIndex : ∀ t : Fin cfg0.N, win0_3.index t 0 = 0 ∧ win0_3.index t 1 = 0 :=
  (by decide +kernel : ∀ t : Fin grid0.N, win0_3.index t 0 = 0 ∧ win0_3.index t 1 = 0)
/-- and its block is one word by one word. -/
theorem outExtent : ∀ t : Fin cfg0.N, win0_3.xsize (grid0.coords t) 0 = 1 ∧ win0_3.xsize (grid0.coords t) 1 = 1 :=
  (by decide +kernel : ∀ t : Fin grid0.N, win0_3.xsize (grid0.coords t) 0 = 1 ∧ win0_3.xsize (grid0.coords t) 1 = 1)

/-- After a point whose number is 127 the output window's staging word holds the loss. -/
theorem output_word_at (c : Dev nD) (t : Fin cfg0.N) (h : t.val = 127) : (outsAt0 m c t.val t.isLt).1 = word m c := by
  obtain ⟨n, hn⟩ := t
  dsimp only at h
  subst h
  exact output_word m c

set_option maxHeartbeats 400000 in
/-- The window's one write-back, after the last point, writes the loss: its block is the whole one-word array. -/
theorem flushed_eq (c : Dev nD) (t : Fin cfg0.N) (hf : (cfg0.win 3).flush t = true) :
    (dats m 0 c).flushed 3 t = ((cfg0.win 3).blk t).view.read (Elt Ideal) (word m c) := by
  have hN : t.val < 128 := lt_of_lt_of_eq t.isLt points
  have h127 : t.val = 127 := by have := (flush0_3 t).mp hf; omega
  show (cfg0.win 3).cut (grid0.coords t) ((dats m 0 c).after 3 t) = _
  rw [after0_3, output_word_at m c t h127]
  have hi := outIndex t
  have hz' : (fun a => win0_3.index t a * main_v0.ty.shape.size a) = fun _ => 0 := funext fun a => by
    match a with
    | ⟨0, _⟩ => show win0_3.index t 0 * _ = 0; rw [hi.1, Nat.zero_mul]
    | ⟨1, _⟩ => show win0_3.index t 1 * _ = 0; rw [hi.2, Nat.zero_mul]
  exact (Memref.read_access_unit_zero (Elt Ideal) main_v0 hz' (fun a => by rw [congrFun hz' a]; simp) (word m c)).symm

set_option maxHeartbeats 400000 in
/-- So the region's result array ends holding the loss. -/
theorem array_eq (c : Dev nD) : (dats m 0 c).arrAt 3 cfg0.N = word m c := by
  obtain ⟨t, ht⟩ : ∃ t : Fin cfg0.N, t.val = 127 := ⟨⟨127, last_lt⟩, rfl⟩
  refine (dats m 0 c).arrAt_eq_of_cover 3 (word m c) (flushed_eq m c) fun i => ⟨t, (flush0_3 t).mpr (by omega), ?_⟩
  show i ∈ ((View.whole main_v0).slice (win0_3.rect t)).set
  rw [View.set_slice_whole, Rect.mem_set_unit]
  intro a
  have hi := outIndex t
  have hx := outExtent t
  have h0 : (i 0 : Nat) < 1 := (i 0).isLt
  have h1 : (i 1 : Nat) < 1 := (i 1).isLt
  match a with
  | ⟨0, _⟩ =>
    show win0_3.index t 0 * win0_3.size 0 ≤ (i 0 : Nat) ∧ (i 0 : Nat) < win0_3.index t 0 * win0_3.size 0 + win0_3.xsize (grid0.coords t) 0
    rw [hi.1, hx.1]; omega
  | ⟨1, _⟩ =>
    show win0_3.index t 1 * win0_3.size 1 ≤ (i 1 : Nat) ∧ (i 1 : Nat) < win0_3.index t 1 * win0_3.size 1 + win0_3.xsize (grid0.coords t) 1
    rw [hi.2, hx.2]; omega

set_option maxHeartbeats 400000 in
/-- The host operation after the region re-lays the one-word array as a scalar: the program's result is the loss. -/
theorem scalar_eq (c : Dev nD) :
    Pipeline.afterTail₀ cfgs (dats m) 0 (V0 m) [hostOps1] c main_v1
      = fun _ => loss (anchors m c) (positives m c) (negatives m c) := by
  unfold Pipeline.afterTail₀
  show StableHlo.after hostOps1 _ (Proc.devRef .tc main_v1) = _
  after_results
  rw [(Pipeline.withArrays_arr spec0 launch0.win.arr_inj c _ _ 3).trans (array_eq m c)]
  rfl

set_option maxHeartbeats 400000 in
/-- Every weakly fair execution of the program terminates with the loss of the three argument arrays in its result and
    the six arguments unchanged. -/
theorem run : θ_run defs (onTc (τ := τ) (main (F := Ideal))) ⟨m, fun _ => 0, ρ⟩ fun r => ∀ c : Dev nD,
      r.2.mem ((c.tc : Thread nD τ).loc main_v1) = (fun _ => loss (anchors m c) (positives m c) (negatives m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v1 (Pipeline.mem_restRefs_of main_v1 (by decide) (by decide))).trans (scalar_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.ReferenceStretches.lean ====
/-
  The reference's run read back in two stretches. The host program is a straight line of 96 operations. Its first
  36 compute the three floored norms, the directions and the two similarities; the other 60 read nothing of what
  came before except those two similarity vectors. So the line is run as two stretches: after the first, the two
  similarity buffers hold their stages as functions of the three argument arrays; the second, started from ANY
  contents in which those two buffers hold the stages, leaves the result buffer at the result stage — the typed
  references through which the three inlined callees pass their operands are the plain buffers, so their
  transports are the identity. Joined, every execution ends with the result stage of the launch contents in the
  result and the six arguments unchanged.
-/
import proofs.«144281_j33062658245027_1_alg».proof.Proof.ReferenceRun
import proofs.«144281_j33062658245027_1_alg».proof.Proof.ReferenceRead
import Idealize.ShloMosaic.Lib.Pipeline.Frame

noncomputable section

namespace Cert.ReferenceIdeal.Stretches

open Cert.ReferenceIdeal Cert.ReferenceIdeal.Gen Cert.ReferenceIdeal.ValueP Cert.ReferenceIdeal.ReadP
  Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- After the first stretch the anchor-positive similarity buffer holds its stage. -/
theorem posSim_after (c : Dev nD) :
    after (opsA (F := F)) (launchContents m c) (Proc.devRef .tc main_v25) = val_main_v25 (F := F) (m ((c.tc : Thread nD τ).loc main_arg0)) (m ((c.tc : Thread nD τ).loc main_arg1)) := by
  after_results_simp <;> rfl

set_option maxRecDepth 8192 in
set_option maxHeartbeats 4000000 in
/-- After the first stretch the anchor-negative similarity buffer holds its stage. -/
theorem negSim_after (c : Dev nD) :
    after (opsA (F := F)) (launchContents m c) (Proc.devRef .tc main_v27) = val_main_v27 (F := F) (m ((c.tc : Thread nD τ).loc main_arg0)) (m ((c.tc : Thread nD τ).loc main_arg2)) := by
  after_results_simp <;> rfl

set_option maxRecDepth 8192 in
set_option maxHeartbeats 4000000 in
/-- The second stretch, from any contents whose two similarity buffers hold the stages of three arrays, leaves the
    result buffer at the result stage of those arrays. -/
theorem result_after (W : Valuation τ sig (Elt F)) (A P N : (⟨S524288x128, .f32⟩ : BufTy).Contents (Elt F))
    (hp : W (Proc.devRef .tc main_v25) = val_main_v25 (F := F) A P) (hn : W (Proc.devRef .tc main_v27) = val_main_v27 (F := F) A N) :
    after (opsB (F := F)) W (Proc.devRef .tc main_v54) = val_main_v54 (F := F) A P N := by
  after_results_simp
  simp only [TRef.toBuf, TRef.ofBuf, cast_eq, hp, hn]
  rfl

/-- The whole line leaves the result buffer at the result stage of the launch contents. -/
theorem result_eq (c : Dev nD) :
    after (ops (F := F)) (launchContents m c) (Proc.devRef .tc main_v54) = val_main_v54 (F := F) (m ((c.tc : Thread nD τ).loc main_arg0)) (m ((c.tc : Thread nD τ).loc main_arg1)) (m ((c.tc : Thread nD τ).loc main_arg2)) := by
  rw [ops_split, StableHlo.after_append]
  exact result_after _ _ _ _ (posSim_after m c) (negSim_after m c)

set_option maxRecDepth 8192 in
set_option maxHeartbeats 4000000 in
/-- No operation writes argument 0: it ends as launched. -/
theorem arg0_after (c : Dev nD) :
    after (ops (F := F)) (launchContents m c) (Proc.devRef .tc main_arg0) = m ((c.tc : Thread nD τ).loc main_arg0) := by
  after_results_simp <;> rfl

set_option maxRecDepth 8192 in
set_option maxHeartbeats 4000000 in
/-- No operation writes argument 1: it ends as launched. -/
theorem arg1_after (c : Dev nD) :
    after (ops (F := F)) (launchContents m c) (Proc.devRef .tc main_arg1) = m ((c.tc : Thread nD τ).loc main_arg1) := by
  after_results_simp <;> rfl

set_option maxRecDepth 8192 in
set_option maxHeartbeats 4000000 in
/-- No operation writes argument 2: it ends as launched. -/
theorem arg2_after (c : Dev nD) :
    after (ops (F := F)) (launchContents m c) (Proc.devRef .tc main_arg2) = m ((c.tc : Thread nD τ).loc main_arg2) := by
  after_results_simp <;> rfl

set_option maxRecDepth 8192 in
set_option maxHeartbeats 4000000 in
/-- No operation writes argument 3: it ends as launched. -/
theorem arg3_after (c : Dev nD) :
    after (ops (F := F)) (launchContents m c) (Proc.devRef .tc main_arg3) = m ((c.tc : Thread nD τ).loc main_arg3) := by
  after_results_simp <;> rfl

set_option maxRecDepth 8192 in
set_option maxHeartbeats 4000000 in
/-- No operation writes argument 4: it ends as launched. -/
theorem arg4_after (c : Dev nD) :
    after (ops (F := F)) (launchContents m c) (Proc.devRef .tc main_arg4) = m ((c.tc : Thread nD τ).loc main_arg4) := by
  after_results_simp <;> rfl

set_option maxRecDepth 8192 in
set_option maxHeartbeats 4000000 in
/-- No operation writes argument 5: it ends as launched. -/
theorem arg5_after (c : Dev nD) :
    after (ops (F := F)) (launchContents m c) (Proc.devRef .tc main_arg5) = m ((c.tc : Thread nD τ).loc main_arg5) := by
  after_results_simp <;> rfl

/-- On every device, for any float values, from any memory with zero counters: every weakly fair execution of the
    reference terminates with the result stage of the three argument arrays in its result and the six arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = val_main_v54 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v54).trans (result_eq m c), (h c main_arg0).trans (arg0_after m c),
      (h c main_arg1).trans (arg1_after m c), (h c main_arg2).trans (arg2_after m c), (h c main_arg3).trans (arg3_after m c),
      (h c main_arg4).trans (arg4_after m c), (h c main_arg5).trans (arg5_after m c)⟩)
    (run_after m ρ)

end Cert.ReferenceIdeal.Stretches

end
-- ==== Proof.ReferenceRows.lean ====
/-
  The reference, row by row. For each of the 524288 triples of rows the host program forms the three floored
  norms, the directions, the two similarities, the hard mask and its complement, and the two selected terms. Each
  statement reads one of those stages at a row as the specification's function of that row of the three arrays.
-/
import proofs.«144281_j33062658245027_1_alg».proof.Proof.ReferenceRead
import proofs.«144281_j33062658245027_1_alg».proof.Proof.HardNegativeLoss

noncomputable section

namespace Cert.ReferenceIdeal.Rows

open Idealize.ShloMosaic Idealize.ShloMosaic.ValueIdx Cert.ReferenceIdeal Cert.ReferenceIdeal.Gen
  Cert.ReferenceIdeal.ReadP Cert.HardNegativeLoss

variable (A P N : (⟨S524288x128, .f32⟩ : BufTy).Contents (Elt Ideal))

/-- The floored norm of a row as the host forms it (normA_apply): the lane sum of the squares from the zero word, kept as a
    column, its square root, floored at the floor word. -/
private theorem normA_apply (X : (⟨S524288x128, .f32⟩ : BufTy).Contents (Elt Ideal)) (j : S524288x1.Idx) :
    val_main_v5 (F := Ideal) X j = norm (rowOf X (j 0)) := by
  rw [val_main_v5_apply, val_main_v3_apply, val_main_v2_apply, val_main_v1_apply, val_main_v4_apply, val_main_cst_0_apply, val_main_cst_apply]
  show max (Ideal.sqrt (Ideal.ofBits .f32 0x00000000#32
      + ∑ k : Fin 128, val_main_v0 (F := Ideal) X (idx_main_v1 (idx_main_v2 j) k))) (Ideal.ofBits .f32 0x2B8CBCCC#32) = _
  rw [Ideal.ofBits_zero_f32, zero_add]
  refine congrArg (fun t => max (Ideal.sqrt t) (Ideal.ofBits .f32 0x2B8CBCCC#32)) ?_
  refine Finset.sum_congr rfl fun k _ => ?_
  have e : idx_main_v1 (idx_main_v2 j) k = ix2 (j 0) k :=
    funext fun a => match a with
      | ⟨0, _⟩ => rfl
      | ⟨1, _⟩ => rfl
  rw [val_main_v0_apply, e]
  rfl

/-- The floored norm of a row as the host forms it (normP_apply): the lane sum of the squares from the zero word, kept as a
    column, its square root, floored at the floor word. -/
private theorem normP_apply (X : (⟨S524288x128, .f32⟩ : BufTy).Contents (Elt Ideal)) (j : S524288x1.Idx) :
    val_main_v13 (F := Ideal) X j = norm (rowOf X (j 0)) := by
  rw [val_main_v13_apply, val_main_v11_apply, val_main_v10_apply, val_main_v9_apply, val_main_v12_apply, val_main_cst_2_apply, val_main_cst_1_apply]
  show max (Ideal.sqrt (Ideal.ofBits .f32 0x00000000#32
      + ∑ k : Fin 128, val_main_v8 (F := Ideal) X (idx_main_v9 (idx_main_v10 j) k))) (Ideal.ofBits .f32 0x2B8CBCCC#32) = _
  rw [Ideal.ofBits_zero_f32, zero_add]
  refine congrArg (fun t => max (Ideal.sqrt t) (Ideal.ofBits .f32 0x2B8CBCCC#32)) ?_
  refine Finset.sum_congr rfl fun k _ => ?_
  have e : idx_main_v9 (idx_main_v10 j) k = ix2 (j 0) k :=
    funext fun a => match a with
      | ⟨0, _⟩ => rfl
      | ⟨1, _⟩ => rfl
  rw [val_main_v8_apply, e]
  rfl

/-- The floored norm of a row as the host forms it (normN_apply): the lane sum of the squares from the zero word, kept as a
    column, its square root, floored at the floor word. -/
private theorem normN_apply (X : (⟨S524288x128, .f32⟩ : BufTy).Contents (Elt Ideal)) (j : S524288x1.Idx) :
    val_main_v21 (F := Ideal) X j = norm (rowOf X (j 0)) := by
  rw [val_main_v21_apply, val_main_v19_apply, val_main_v18_apply, val_main_v17_apply, val_main_v20_apply, val_main_cst_4_apply, val_main_cst_3_apply]
  show max (Ideal.sqrt (Ideal.ofBits .f32 0x00000000#32
      + ∑ k : Fin 128, val_main_v16 (F := Ideal) X (idx_main_v17 (idx_main_v18 j) k))) (Ideal.ofBits .f32 0x2B8CBCCC#32) = _
  rw [Ideal.ofBits_zero_f32, zero_add]
  refine congrArg (fun t => max (Ideal.sqrt t) (Ideal.ofBits .f32 0x2B8CBCCC#32)) ?_
  refine Finset.sum_congr rfl fun k _ => ?_
  have e : idx_main_v17 (idx_main_v18 j) k = ix2 (j 0) k :=
    funext fun a => match a with
      | ⟨0, _⟩ => rfl
      | ⟨1, _⟩ => rfl
  rw [val_main_v16_apply, e]
  rfl

/-- A row divided lane by lane by its floored norm, as the host forms it (dirA_apply): the row's direction. -/
private theorem dirA_apply (X : (⟨S524288x128, .f32⟩ : BufTy).Contents (Elt Ideal)) (i : S524288x128.Idx) :
    val_main_v7 (F := Ideal) X i = Ideal.div (X i) (norm (rowOf X (i 0))) := by
  rw [val_main_v7_apply, val_main_v6_apply, normA_apply]
  rfl

/-- A row divided lane by lane by its floored norm, as the host forms it (dirP_apply): the row's direction. -/
private theorem dirP_apply (X : (⟨S524288x128, .f32⟩ : BufTy).Contents (Elt Ideal)) (i : S524288x128.Idx) :
    val_main_v15 (F := Ideal) X i = Ideal.div (X i) (norm (rowOf X (i 0))) := by
  rw [val_main_v15_apply, val_main_v14_apply, normP_apply]
  rfl

/-- A row divided lane by lane by its floored norm, as the host forms it (dirN_apply): the row's direction. -/
private theorem dirN_apply (X : (⟨S524288x128, .f32⟩ : BufTy).Contents (Elt Ideal)) (i : S524288x128.Idx) :
    val_main_v23 (F := Ideal) X i = Ideal.div (X i) (norm (rowOf X (i 0))) := by
  rw [val_main_v23_apply, val_main_v22_apply, normN_apply]
  rfl

/-- The anchor-positive similarity of row `i`. -/
theorem posSim_apply (i : S524288.Idx) :
    val_main_v25 (F := Ideal) A P i = sim (rowOf A (i 0)) (rowOf P (i 0)) := by
  rw [val_main_v25_apply, val_main_cst_5_apply]
  show Ideal.ofBits .f32 0x00000000#32 + ∑ k : Fin 128, val_main_v24 (F := Ideal) _ _ (idx_main_v25 i k) = _
  rw [Ideal.ofBits_zero_f32, zero_add]
  refine Finset.sum_congr rfl fun k _ => ?_
  have e : idx_main_v25 i k = ix2 (i 0) k :=
    funext fun a => match a with
      | ⟨0, _⟩ => rfl
      | ⟨1, _⟩ => rfl
  rw [val_main_v24_apply, dirA_apply, dirP_apply, e]
  rfl

/-- The anchor-negative similarity of row `i`. -/
theorem negSim_apply (i : S524288.Idx) :
    val_main_v27 (F := Ideal) A N i = sim (rowOf A (i 0)) (rowOf N (i 0)) := by
  rw [val_main_v27_apply, val_main_cst_6_apply]
  show Ideal.ofBits .f32 0x00000000#32 + ∑ k : Fin 128, val_main_v26 (F := Ideal) _ _ (idx_main_v27 i k) = _
  rw [Ideal.ofBits_zero_f32, zero_add]
  refine Finset.sum_congr rfl fun k _ => ?_
  have e : idx_main_v27 i k = ix2 (i 0) k :=
    funext fun a => match a with
      | ⟨0, _⟩ => rfl
      | ⟨1, _⟩ => rfl
  rw [val_main_v26_apply, dirA_apply, dirN_apply, e]
  rfl

/-- The join of two one-bit flags is the flag of the disjunction. -/
private theorem ofBool_or (p q : Bool) : BitVec.ofBool p ||| BitVec.ofBool q = BitVec.ofBool (p || q) := by
  cases p <;> cases q <;> rfl

/-- The complement of a one-bit flag is the flag of the negation. -/
private theorem ofBool_not (b : Bool) : ~~~(BitVec.ofBool b) = BitVec.ofBool (!b) := by
  cases b <;> rfl

/-- Selecting by a one-bit flag is the conditional on its Boolean. -/
private theorem select_ofBool {α : Type} (b : Bool) (x y : α) :
    Scalar.select (BitVec.ofBool b) x y = if b then x else y := by
  cases b
  · exact select_zero x y
  · exact select_one x y

/-- The hard mask at row `i`. -/
theorem hardMask_apply (i : S524288.Idx) :
    val_main_v31 (F := Ideal) A P N i = BitVec.ofBool (isHard (rowOf A (i 0)) (rowOf P (i 0)) (rowOf N (i 0))) := by
  rw [val_main_v31_apply, val_main_v28_apply, val_main_v30_apply, val_main_v29_apply, val_main_cst_7_apply,
    negSim_apply, posSim_apply]
  show BitVec.ofBool (decide (sim (rowOf A (i 0)) (rowOf P (i 0)) < sim (rowOf A (i 0)) (rowOf N (i 0))))
      ||| BitVec.ofBool (decide (Ideal.ofBits .f32 0x3F4CCCCD#32 < sim (rowOf A (i 0)) (rowOf N (i 0)))) = _
  rw [ofBool_or]
  rfl

/-- Its complement. -/
theorem otherMask_apply (i : S524288.Idx) :
    val_main_v36 (F := Ideal) A P N i = BitVec.ofBool (!isHard (rowOf A (i 0)) (rowOf P (i 0)) (rowOf N (i 0))) := by
  rw [val_main_v36_apply, hardMask_apply, ofBool_not]

/-- What row `i` adds to the hard total. -/
theorem hardTerm_apply (i : S524288.Idx) :
    val_main_v32 (F := Ideal) A P N i = hardTerm (rowOf A (i 0)) (rowOf P (i 0)) (rowOf N (i 0)) := by
  rw [val_main_v32_apply, hardMask_apply, negSim_apply, val_main_call0_v1_apply, val_main_call0_v0_apply,
    val_main_cst_8_apply]
  show Scalar.select _ _ (Ideal.ofBits .f32 0x00000000#32) = _
  rw [Ideal.ofBits_zero_f32, select_ofBool]
  rfl

/-- Subtracting zero from an extended real changes nothing. -/
private theorem ereal_sub_zero (t : EReal) : t - 0 = t := by
  rw [sub_eq_add_neg, neg_zero, add_zero]

/-- The host's softplus of a word `d`: where `d - 0` differs from itself (nowhere) `d + 0`, elsewhere
    `max(d, 0) + log1p(exp(-|d - 0|))`; it is the specification's softplus. -/
private theorem softplus_host (d : EReal) :
    Scalar.select (Ideal.cmp .une (d - Ideal.ofBits .f32 0x00000000#32) (d - Ideal.ofBits .f32 0x00000000#32))
        (d + Ideal.ofBits .f32 0x00000000#32)
        (max d (Ideal.ofBits .f32 0x00000000#32)
          + Ideal.log1p (Ideal.exp
              (-(max (d - Ideal.ofBits .f32 0x00000000#32) (-(d - Ideal.ofBits .f32 0x00000000#32))))))
      = softplus d := by
  rw [Ideal.ofBits_zero_f32, ereal_sub_zero]
  have h : Ideal.cmp .une d d = 0#1 := by
    show BitVec.ofBool (decide (d ≠ d)) = 0#1
    rw [decide_eq_false (fun h => h rfl)]
    rfl
  rw [h, select_zero]
  rfl

/-- The similarity gap of row `i` divided by the temperature word. -/
private theorem gap_apply (i : S524288.Idx) :
    val_main_v39 (F := Ideal) A P N i
      = Ideal.div (sim (rowOf A (i 0)) (rowOf N (i 0)) - sim (rowOf A (i 0)) (rowOf P (i 0))) temperature := by
  rw [val_main_v39_apply, val_main_v37_apply, val_main_v38_apply, val_main_cst_10_apply, negSim_apply, posSim_apply]
  rfl

/-- The host's softplus stage at row `i` is the specification's softplus of the row's scaled gap. -/
private theorem softplusStage_apply (i : S524288.Idx) :
    val_main_v40 (F := Ideal) A P N i
      = softplus (Ideal.div (sim (rowOf A (i 0)) (rowOf N (i 0)) - sim (rowOf A (i 0)) (rowOf P (i 0))) temperature) := by
  rw [val_main_v40_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, gap_apply]
  exact softplus_host _

/-- What row `i` adds to the other total. -/
theorem otherTerm_apply (i : S524288.Idx) :
    val_main_v41 (F := Ideal) A P N i = otherTerm (rowOf A (i 0)) (rowOf P (i 0)) (rowOf N (i 0)) := by
  rw [val_main_v41_apply, otherMask_apply, softplusStage_apply, val_main_call2_v1_apply, val_main_call2_v0_apply,
    val_main_cst_11_apply]
  show Scalar.select _ _ (Ideal.ofBits .f32 0x00000000#32) = _
  rw [Ideal.ofBits_zero_f32, select_ofBool]
  unfold otherTerm
  cases isHard (rowOf A (i 0)) (rowOf P (i 0)) (rowOf N (i 0)) <;> rfl

end Cert.ReferenceIdeal.Rows

end
-- ==== Proof.LibCountAll.lean ====
/-
  COUNTING THE SET BITS OF A MASK SUMMED TO ONE WORD. A vector of n bits, each widened to a 32-bit word and
  summed by a reduction over its only axis from the zero word, is the number of set bits (n below 2^32, so the
  sum does not wrap). Beside it: on the extended reals a sum of ones over the indices where a test holds is the
  number of those indices, and the two complementary counts of a test add up to the number of all indices.
  Last, small facts of the same kind: a sum over a vector's indices is the sum over their one coordinate, a
  natural number's image in the extended reals is zero only for zero, a 32-bit word is the zero word exactly
  when its value is zero, the word 0x3F800000 is the real one, and a selection on "this word is zero" is a case
  split on any equivalent proposition.
-/
import Idealize.ShloMosaic.Lib.StableHlo.Predicate
import Idealize.ShloMosaic.Lib.ValueIdx
import Idealize.ShloMosaic.PureOps.Ideal

open scoped BigOperators

namespace Cert.LibCountAll

open Idealize.ShloMosaic Idealize.ShloMosaic.ValueIdx

/-- The sum-reduction of a widened n-bit mask over its one axis is, as a natural number, the count of the set bits. -/
theorem toNat_reduce_count_all {n : ℕ} (hn : n < 2 ^ 32) (mask : IVec ⟨1, ![n]⟩ 1) (hw : 1 < 32)
    (h : (⟨1, ![n]⟩ : Shape).ReducesTo [0] ⟨0, ![]⟩) {u : Shape} (hu : 0 < u.numel) (j : (⟨0, ![]⟩ : Shape).Idx) :
    (Host.reduce IntOp.addi (extui 32 mask hw) (constantI u 32 0#32) h hu j).toNat
      = (Finset.univ.filter (fun p : Fin n => mask (ix1 p) = 1#1)).card := by
  classical
  rw [Host.reduce_eq_fold]
  -- a widened bit is worth 0 or 1
  have hval : ∀ i, (extui 32 mask hw i).toNat = if mask i = 1#1 then 1 else 0 :=
    fun i => StableHlo.Predicate.toNat_setWidth_bit (mask i)
  -- the result has no axis, hence one index only: every source index drops to it
  have hdrop : ∀ i : (⟨1, ![n]⟩ : Shape).Idx, h.drop i = j := fun i => funext fun d => d.elim0
  -- the sum over all rank-1 indices is the sum over their one coordinate
  have hsum : ∑ i ∈ Finset.univ.filter (fun i : (⟨1, ![n]⟩ : Shape).Idx => h.drop i = j), (extui 32 mask hw i).toNat
      = (Finset.univ.filter (fun p : Fin n => mask (ix1 p) = 1#1)).card := by
    rw [Finset.card_filter]
    refine Finset.sum_bij' (fun i _ => i 0) (fun p _ => ix1 p) (fun _ _ => Finset.mem_univ _)
      (fun p _ => Finset.mem_filter.2 ⟨Finset.mem_univ _, hdrop _⟩)
      (fun i _ => (eq_ix1 i).symm) (fun _ _ => rfl) ?_
    intro i _
    rw [hval]
    exact congrArg (fun x => if mask x = 1#1 then 1 else 0) (eq_ix1 i)
  show (Finset.fold IntOp.addi 0#32 (extui 32 mask hw)
    (Finset.univ.filter fun i : (⟨1, ![n]⟩ : Shape).Idx => h.drop i = j)).toNat = _
  rw [StableHlo.Predicate.toNat_fold_addi _ _
    (by rw [hsum]; exact lt_of_le_of_lt (Finset.card_le_univ _) (by simpa using hn)), hsum]

/-- On the extended reals, over any finite set of indices, a sum of ones where a property holds is the number
    of the set's indices with the property. -/
theorem sum_ite_prop {ι : Type} (S : Finset ι) (p : ι → Prop) [DecidablePred p] :
    (∑ r ∈ S, (if p r then (1 : EReal) else 0)) = (((S.filter p).card : ℝ) : EReal) := by
  classical
  induction S using Finset.induction_on with
  | empty => simp
  | insert a S ha ih =>
    rw [Finset.sum_insert ha, ih, Finset.filter_insert]
    by_cases hp : p a
    · have hna : a ∉ S.filter p := fun hm => ha (Finset.mem_filter.1 hm).1
      rw [if_pos hp, if_pos hp, Finset.card_insert_of_notMem hna, Nat.cast_add, Nat.cast_one, EReal.coe_add,
        EReal.coe_one, add_comm]
    · rw [if_neg hp, if_neg hp, zero_add]

/-- On the extended reals, a sum of ones over the indices where a test holds is the number of those indices. -/
theorem sum_ite_one {ι : Type} [Fintype ι] (b : ι → Bool) :
    (∑ r : ι, (if b r then (1 : EReal) else 0)) = (((Finset.univ.filter (fun r : ι => b r = true)).card : ℝ) : EReal) := by
  exact sum_ite_prop Finset.univ (fun r => b r = true)

/-- The same for the indices where the test fails. -/
theorem sum_ite_zero_one {ι : Type} [Fintype ι] (b : ι → Bool) :
    (∑ r : ι, (if b r then (0 : EReal) else 1)) = (((Finset.univ.filter (fun r : ι => b r = false)).card : ℝ) : EReal) := by
  rw [← sum_ite_prop Finset.univ (fun r => b r = false)]
  refine Finset.sum_congr rfl fun r _ => ?_
  cases b r <;> simp

/-- The indices where a test holds and those where it fails are all the indices. -/
theorem card_true_add_card_false {ι : Type} [Fintype ι] (b : ι → Bool) :
    (Finset.univ.filter (fun r : ι => b r = true)).card + (Finset.univ.filter (fun r : ι => b r = false)).card
      = Fintype.card ι := by
  classical
  have hneg : (Finset.univ.filter (fun r : ι => b r = false)) = Finset.univ.filter (fun r : ι => ¬ b r = true) :=
    Finset.filter_congr fun r _ => by cases b r <;> simp
  rw [hneg, Finset.card_filter_add_card_filter_not, Finset.card_univ]

/-! ## More of the same kind: a vector's indices, the zero word, the word of the real one -/

/-- A sum over the indices of a vector is the sum over their one coordinate. -/
theorem sum_idx1 {M : Type*} [AddCommMonoid M] {n : ℕ} (f : (⟨1, ![n]⟩ : Shape).Idx → M) :
    ∑ i, f i = ∑ r : Fin n, f (ix1 r) :=
  Finset.sum_bij' (fun i _ => i 0) (fun r _ => ix1 r) (fun _ _ => Finset.mem_univ _) (fun _ _ => Finset.mem_univ _)
    (fun i _ => (eq_ix1 i).symm) (fun _ _ => rfl) (fun i _ => congrArg f (eq_ix1 i))

/-- A natural number's image in the extended reals is zero only for zero. -/
theorem natCast_eq_zero_iff (n : ℕ) : (((n : ℝ)) : EReal) = 0 ↔ n = 0 := by
  rw [EReal.coe_eq_zero, Nat.cast_eq_zero]

/-- A word is the zero word exactly when its value is zero. -/
theorem word_eq_zero_iff (a : BitVec 32) : a = 0#32 ↔ a.toNat = 0 := by
  constructor
  · rintro rfl; rfl
  · intro h; exact BitVec.eq_of_toNat_eq (by simpa using h)

/-- The word 0x3F800000 is the real one. -/
theorem ofBits_one_f32 : Ideal.ofBits .f32 0x3F800000#32 = 1 := by
  simp [Ideal.ofBits, Ideal.ieee]
  rw [← EReal.coe_mul, ← EReal.coe_one]
  exact congrArg _ (by norm_num)

/-- A selection on the test "this word is the zero word" is a case split on any equivalent proposition. -/
theorem select_cmpi_zero {α : Type} (w : BitVec 32) (p : Prop) [Decidable p] (h : w = 0#32 ↔ p) (a b : α) :
    Scalar.select (IntOp.cmpi .eq w 0#32) a b = if p then a else b := by
  by_cases hp : p
  · rw [if_pos hp, StableHlo.Predicate.cmpi_eq_iff.2 (h.2 hp), select_one]
  · rw [if_neg hp, eq_zero_of_ne_one fun e => hp (h.1 (StableHlo.Predicate.cmpi_eq_iff.1 e)), select_zero]

end Cert.LibCountAll
-- ==== Proof.ReferenceLoss.lean ====
/-
  The reference as a whole: its two float sums are the specification's totals, its two integer sums count the hard
  and the other triples without wrapping (there are 524288 of them), an integer count is zero exactly when the real
  count is, the integer sum of the two counts floored at one converts exactly to the real one, and so the program's
  result is the loss.
-/
import proofs.«144281_j33062658245027_1_alg».proof.Proof.ReferenceRows
import proofs.«144281_j33062658245027_1_alg».proof.Proof.LibCountAll

noncomputable section

namespace Cert.ReferenceIdeal.Loss

open Idealize.ShloMosaic Idealize.ShloMosaic.ValueIdx Cert.ReferenceIdeal Cert.ReferenceIdeal.Gen
  Cert.ReferenceIdeal.ReadP Cert.HardNegativeLoss

variable (A P N : (⟨S524288x128, .f32⟩ : BufTy).Contents (Elt Ideal))

/-- The host's sum of the hard terms. -/
theorem hardTotal_eq (j : S_.Idx) : val_main_v33 (F := Ideal) A P N j = hardTotal A P N := by
  rw [val_main_v33_apply, val_main_cst_9_apply]
  show Ideal.ofBits .f32 0x00000000#32 + _ = _
  rw [Ideal.ofBits_zero_f32, zero_add, LibCountAll.sum_idx1]
  exact Finset.sum_congr rfl fun r _ => Rows.hardTerm_apply A P N (ix1 r)

/-- The host's sum of the other terms. -/
theorem otherTotal_eq (j : S_.Idx) : val_main_v42 (F := Ideal) A P N j = otherTotal A P N := by
  rw [val_main_v42_apply, val_main_cst_12_apply]
  show Ideal.ofBits .f32 0x00000000#32 + _ = _
  rw [Ideal.ofBits_zero_f32, zero_add, LibCountAll.sum_idx1]
  exact Finset.sum_congr rfl fun r _ => Rows.otherTerm_apply A P N (ix1 r)

/-- The host's integer count of the hard triples, as a natural number. -/
theorem hardCount_toNat (j : S_.Idx) :
    (val_main_v35 (F := Ideal) A P N j).toNat
      = (Finset.univ.filter (fun r : Fin 524288 => isHard (rowOf A r) (rowOf P r) (rowOf N r) = true)).card := by
  refine (LibCountAll.toNat_reduce_count_all (n := 524288) (by norm_num) (val_main_v31 (F := Ideal) A P N) natLt_1_32
    reducesTo_S524288_S_d0 h_S_ j).trans ?_
  refine congrArg Finset.card (Finset.filter_congr fun r _ => ?_)
  rw [Rows.hardMask_apply]
  exact StableHlo.Predicate.ofBool_eq_one_iff _

/-- The host's integer count of the other triples, as a natural number. -/
theorem otherCount_toNat (j : S_.Idx) :
    (val_main_v44 (F := Ideal) A P N j).toNat
      = (Finset.univ.filter (fun r : Fin 524288 => isHard (rowOf A r) (rowOf P r) (rowOf N r) = false)).card := by
  refine (LibCountAll.toNat_reduce_count_all (n := 524288) (by norm_num) (val_main_v36 (F := Ideal) A P N) natLt_1_32
    reducesTo_S524288_S_d0 h_S_ j).trans ?_
  refine congrArg Finset.card (Finset.filter_congr fun r _ => ?_)
  rw [Rows.otherMask_apply]
  exact (StableHlo.Predicate.ofBool_eq_one_iff _).trans (Bool.not_eq_true' _).to_iff

/-- The specification's hard count is the number of hard triples. -/
theorem hardCount_eq : hardCount A P N
    = (((Finset.univ.filter (fun r : Fin 524288 => isHard (rowOf A r) (rowOf P r) (rowOf N r) = true)).card : ℝ) : EReal) :=
  LibCountAll.sum_ite_one (fun r : Fin 524288 => isHard (rowOf A r) (rowOf P r) (rowOf N r))

/-- The specification's other count is the number of the other triples. -/
theorem otherCount_eq : otherCount A P N
    = (((Finset.univ.filter (fun r : Fin 524288 => isHard (rowOf A r) (rowOf P r) (rowOf N r) = false)).card : ℝ) : EReal) :=
  LibCountAll.sum_ite_zero_one (fun r : Fin 524288 => isHard (rowOf A r) (rowOf P r) (rowOf N r))

/-- The integer hard count is the zero word exactly when the real hard count is zero. -/
theorem hardCount_zero_iff (j : S_.Idx) : val_main_v35 (F := Ideal) A P N j = 0#32 ↔ hardCount A P N = 0 := by
  rw [LibCountAll.word_eq_zero_iff, hardCount_toNat, hardCount_eq, LibCountAll.natCast_eq_zero_iff]

/-- The same for the other count. -/
theorem otherCount_zero_iff (j : S_.Idx) : val_main_v44 (F := Ideal) A P N j = 0#32 ↔ otherCount A P N = 0 := by
  rw [LibCountAll.word_eq_zero_iff, otherCount_toNat, otherCount_eq, LibCountAll.natCast_eq_zero_iff]

/-- The first selection: zero when no triple is hard, else the hard total. -/
theorem hardWhere_eq (j : S_.Idx) :
    val_main_v46 (F := Ideal) A P N j = if hardCount A P N = 0 then 0 else hardTotal A P N := by
  rw [val_main_v46_apply, val_main_v45_apply, val_main_c_14_apply, val_main_call3_v0_apply, val_main_cst_15_apply,
    hardTotal_eq, LibCountAll.select_cmpi_zero _ _ (hardCount_zero_iff A P N j)]
  show (if hardCount A P N = 0 then Ideal.ofBits .f32 0x00000000#32 else hardTotal A P N) = _
  rw [Ideal.ofBits_zero_f32]

/-- The second selection: zero when every triple is hard, else the other total. -/
theorem otherWhere_eq (j : S_.Idx) :
    val_main_v48 (F := Ideal) A P N j = if otherCount A P N = 0 then 0 else otherTotal A P N := by
  rw [val_main_v48_apply, val_main_v47_apply, val_main_c_16_apply, val_main_call4_v0_apply, val_main_cst_17_apply,
    otherTotal_eq, LibCountAll.select_cmpi_zero _ _ (otherCount_zero_iff A P N j)]
  show (if otherCount A P N = 0 then Ideal.ofBits .f32 0x00000000#32 else otherTotal A P N) = _
  rw [Ideal.ofBits_zero_f32]

/-- The two integer counts add up to all 524288 triples. -/
theorem counts_add (j : S_.Idx) :
    (val_main_v35 (F := Ideal) A P N j).toNat + (val_main_v44 (F := Ideal) A P N j).toNat = 524288 := by
  rw [hardCount_toNat, otherCount_toNat, LibCountAll.card_true_add_card_false, Fintype.card_fin]

/-- The integer sum of the two counts does not wrap, its signed maximum with one is itself, and it converts to the
    real 524288. -/
theorem denom_eq (j : S_.Idx) : val_main_v53 (F := Ideal) A P N j = ((524288 : ℝ) : EReal) := by
  rw [val_main_v53_apply, val_main_v50_apply, val_main_v49_apply, val_main_c_18_apply]
  have hs : IntOp.addi (val_main_v35 (F := Ideal) A P N j) (val_main_v44 (F := Ideal) A P N j) = 524288#32 := by
    apply BitVec.eq_of_toNat_eq
    show (val_main_v35 (F := Ideal) A P N j + val_main_v44 (F := Ideal) A P N j).toNat = _
    rw [BitVec.toNat_add, counts_add]
    rfl
  rw [hs]
  have hm : (IntOp.maxsi 524288#32 1#32).toInt = 524288 := by decide
  show (((IntOp.maxsi 524288#32 1#32).toInt : ℝ) : EReal) = _
  rw [hm]
  norm_num

/-- The two real counts add up to 524288 as well. -/
theorem countSum_eq : hardCount A P N + otherCount A P N = ((524288 : ℝ) : EReal) := by
  rw [hardCount_eq, otherCount_eq, ← EReal.coe_add, ← Nat.cast_add, LibCountAll.card_true_add_card_false, Fintype.card_fin]
  norm_num

/-- The floor of one under the count of all triples does not bind. -/
theorem max_count_one : max ((524288 : ℝ) : EReal) oneWord = ((524288 : ℝ) : EReal) := by
  unfold oneWord
  rw [LibCountAll.ofBits_one_f32, ← EReal.coe_one]
  exact max_eq_left (EReal.coe_le_coe_iff.2 (by norm_num))

/-- The reference's result is the loss of its three arrays. -/
theorem reference_is_loss : val_main_v54 (F := Ideal) A P N = fun _ => loss A P N := by
  funext j
  rw [val_main_v54_apply, val_main_v52_apply, val_main_v51_apply, val_main_cst_19_apply, hardWhere_eq, otherWhere_eq,
    denom_eq]
  unfold loss finish
  rw [countSum_eq, max_count_one]
  rfl

end Cert.ReferenceIdeal.Loss

end
-- ==== Proof.lean ====
/-
  The certificate of a hard-negative cosine loss kernel against its jnp reference.

  Both programs take three arrays of 524288 rows of 128 lanes (anchors, positives, negatives; three label vectors
  are passed and never read). Each row is divided by its norm floored at a small word; a triple's two similarities
  are the lane sums of the products of the anchor's direction with the positive's and with the negative's; the
  triple is hard when the negative similarity exceeds the positive one or a threshold; hard triples add their
  negative similarity to one total, the others add softplus of the similarity gap over a temperature to a second
  total; the loss is (second total + 1 * first total) / max(number of triples, 1), a total with no triple read as
  zero. The kernel walks the rows in 128 blocks of 4096, keeping the two totals and the two counts (as floats) in
  four one-word accumulators that it resets at the first block and combines after the last; the reference sums each
  total over all rows at once and counts in 32-bit integers.

  Over the extended reals the two agree: a block's row is a row of its array, 128 blocks of 4096 rows are all the
  rows once, and addition is commutative and associative, so the kernel's accumulated totals are the reference's
  sums (no finiteness is used); at most 524288 ones are counted, so the integer counts do not wrap, an integer
  count is zero exactly when the float count is, and the sum of the two counts floored at one converts exactly;
  the reference's "x differs from itself" guard inside softplus and the kernel's are both never taken. The idealized
  kernel was printed with no rewrite, so its relation to the kernel is the trivial one, and the three programs'
  frames are the kernel's generated frame runs and the reference's run with its result dropped.
-/
import proofs.«144281_j33062658245027_1_alg».proof.Defs
import proofs.«144281_j33062658245027_1_alg».proof.Proof.Gen.Kernel
import proofs.«144281_j33062658245027_1_alg».proof.Proof.Gen.Kernel.Skeleton
import proofs.«144281_j33062658245027_1_alg».proof.Proof.Gen.Kernel.Launch
import proofs.«144281_j33062658245027_1_alg».proof.Proof.Gen.Kernel.Points
import proofs.«144281_j33062658245027_1_alg».proof.Proof.Gen.Kernel.Frame
import proofs.«144281_j33062658245027_1_alg».proof.Proof.Gen.KernelIdeal
import proofs.«144281_j33062658245027_1_alg».proof.Proof.Gen.KernelIdeal.Skeleton
import proofs.«144281_j33062658245027_1_alg».proof.Proof.Gen.KernelIdeal.Launch
import proofs.«144281_j33062658245027_1_alg».proof.Proof.Gen.KernelIdeal.Points
import proofs.«144281_j33062658245027_1_alg».proof.Proof.Gen.KernelIdeal.Frame
import proofs.«144281_j33062658245027_1_alg».proof.Proof.Gen.ReferenceIdeal
import proofs.«144281_j33062658245027_1_alg».proof.Proof.Gen.Pre_finite_inputs
import proofs.«144281_j33062658245027_1_alg».proof.Proof.KernelLoss
import proofs.«144281_j33062658245027_1_alg».proof.Proof.ReferenceStretches
import proofs.«144281_j33062658245027_1_alg».proof.Proof.ReferenceLoss
import Idealize.ShloMosaic.Adequacy
import Idealize.ShloMosaic.Init

noncomputable section

namespace Cert.Proof

open Idealize.ShloMosaic Idealize.SL.Sem

/-- The kernel as printed runs, faults nowhere and leaves its arguments as they were: its generated frame run. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Stretches.run (F := Ideal) m ρ)

/-- The idealized kernel is the kernel's own text read over the extended reals: no rewrite to account for. -/
theorem preserves : Cert.preserves_Kernel_KernelIdeal := trivial

/-- From memories that agree on the arguments the kernel ends with the loss of its three arrays in its result and the
    reference with its result stage of the same arrays, which is that loss. -/
theorem algebraic : Cert.algebraic_KernelIdeal_ReferenceIdeal := by
  intro m ρ m' ρ' _ hagree
  refine ⟨fun c => fun _ => Cert.HardNegativeLoss.loss (Cert.KernelIdeal.Totals.anchors m c) (Cert.KernelIdeal.Totals.positives m c)
    (Cert.KernelIdeal.Totals.negatives m c), Cert.KernelIdeal.Result.run m ρ, ?_⟩
  refine (θ_run Cert.ReferenceIdeal.defs _ _).mono (fun _ h c => ⟨(h c).1.trans ?_, (h c).2⟩)
    (Cert.ReferenceIdeal.Stretches.run (F := Ideal) m' ρ')
  rw [(hagree c).1, (hagree c).2.1, (hagree c).2.2.1]
  exact Cert.ReferenceIdeal.Loss.reference_is_loss _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
